-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512x8x8 : Shape := ⟨4, ![1024, 512, 8, 8]⟩
abbrev S1024x8x8 : Shape := ⟨3, ![1024, 8, 8]⟩
abbrev S_ : Shape := ⟨0, ![]⟩

class Facts : Prop where
  bcast_S_S1024x512x8x8 : S_.BroadcastsInDim S1024x512x8x8 (![] : Fin 0 → Fin S1024x512x8x8.rank)
  reducesTo_S1024x512x8x8_S_d0_1_2_3 : S1024x512x8x8.ReducesTo [0, 1, 2, 3] S_
  h_S_ : 0 < S_.numel

variable [Facts]

def fn {F : FTy → Type} [FloatOps F] (main_arg0 : FVec F S1024x512x8x8 .f32) (main_arg1 : IVec S1024x8x8 32) : IVec S_ 1 :=
  let main_v0 : FVec F S1024x512x8x8 .f32 := Host.absf main_arg0
  let main_cst : FVec F S_ .f32 := constant S_ .f32 0x7F800000#32
  let main_v1 : FVec F S1024x512x8x8 .f32 := broadcastInDim S1024x512x8x8 ![] bcast_S_S1024x512x8x8 main_cst
  let main_v2 : IVec S1024x512x8x8 1 := cmpf .olt main_v0 main_v1
  let main_c : IVec S_ 1 := constantI S_ 1 1#1
  let main_v3 : IVec S_ 1 := (fun x v => Host.reduce IntOp.andi x v reducesTo_S1024x512x8x8_S_d0_1_2_3 h_S_) main_v2 main_c
  main_v3
-- ==== Kernel.lean ====
abbrev S1024x512x8x8 : Shape := ⟨4, ![1024, 512, 8, 8]⟩
abbrev S1024x8x8 : Shape := ⟨3, ![1024, 8, 8]⟩
abbrev S1024x64 : Shape := ⟨2, ![1024, 64]⟩
abbrev S32 : Shape := ⟨1, ![32]⟩
abbrev S_ : Shape := ⟨0, ![]⟩
abbrev S1024x1x64 : Shape := ⟨3, ![1024, 1, 64]⟩
abbrev S1x32x1 : Shape := ⟨3, ![1, 32, 1]⟩
abbrev S1024x32x64 : Shape := ⟨3, ![1024, 32, 64]⟩
abbrev S1024x32 : Shape := ⟨2, ![1024, 32]⟩
abbrev S1024x32x1 : Shape := ⟨3, ![1024, 32, 1]⟩
abbrev S1x1x64 : Shape := ⟨3, ![1, 1, 64]⟩
abbrev S1024x512x64 : Shape := ⟨3, ![1024, 512, 64]⟩
abbrev S1024x32x512 : Shape := ⟨3, ![1024, 32, 512]⟩
abbrev S64x512x64 : Shape := ⟨3, ![64, 512, 64]⟩
abbrev S64x32x64 : Shape := ⟨3, ![64, 32, 64]⟩
abbrev S64x32x512 : Shape := ⟨3, ![64, 32, 512]⟩

abbrev nBuf : Space → Nat
  | .hbm => 32
  | .vmem => 6
  | .smem => 0
  | _ => 0

abbrev bufTy : (tb : Table) → Fin (tcTables nBuf tb) → BufTy
  | .hbm, ⟨0, _⟩ => ⟨S1024x512x8x8, .f32⟩
  | .hbm, ⟨1, _⟩ => ⟨S1024x8x8, .i32⟩
  | .hbm, ⟨2, _⟩ => ⟨S1024x64, .i32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S1024x1x64, .i32⟩
  | .hbm, ⟨8, _⟩ => ⟨S1x32x1, .i32⟩
  | .hbm, ⟨9, _⟩ => ⟨S1024x32x64, .i32⟩
  | .hbm, ⟨10, _⟩ => ⟨S1024x32x64, .i32⟩
  | .hbm, ⟨11, _⟩ => ⟨S1024x32x64, .i1⟩
  | .hbm, ⟨12, _⟩ => ⟨S_, .i1⟩
  | .hbm, ⟨13, _⟩ => ⟨S1024x32, .i1⟩
  | .hbm, ⟨14, _⟩ => ⟨S1024x32x64, .i32⟩
  | .hbm, ⟨15, _⟩ => ⟨S1024x32x64, .i32⟩
  | .hbm, ⟨16, _⟩ => ⟨S_, .i32⟩
  | .hbm, ⟨17, _⟩ => ⟨S_, .i32⟩
  | .hbm, ⟨18, _⟩ => ⟨S1024x32, .i32⟩
  | .hbm, ⟨19, _⟩ => ⟨S1024x32, .i32⟩
  | .hbm, ⟨20, _⟩ => ⟨S1024x32x1, .i32⟩
  | .hbm, ⟨21, _⟩ => ⟨S1x1x64, .i32⟩
  | .hbm, ⟨22, _⟩ => ⟨S1024x32x64, .i32⟩
  | .hbm, ⟨23, _⟩ => ⟨S1024x32x64, .i32⟩
  | .hbm, ⟨24, _⟩ => ⟨S1024x32x64, .i1⟩
  | .hbm, ⟨25, _⟩ => ⟨S1024x32x64, .f32⟩
  | .hbm, ⟨26, _⟩ => ⟨S1024x32x1, .i1⟩
  | .hbm, ⟨27, _⟩ => ⟨S1024x32x1, .f32⟩
  | .hbm, ⟨28, _⟩ => ⟨S1024x32x64, .f32⟩
  | .hbm, ⟨29, _⟩ => ⟨S1024x32x64, .f32⟩
  | .hbm, ⟨30, _⟩ => ⟨S1024x512x64, .f32⟩
  | .hbm, ⟨31, _⟩ => ⟨S1024x32x512, .f32⟩
  | .local _ .vmem, ⟨0, _⟩ => ⟨S64x512x64, .f32⟩
  | .local _ .vmem, ⟨1, _⟩ => ⟨S64x512x64, .f32⟩
  | .local _ .vmem, ⟨2, _⟩ => ⟨S64x32x64, .f32⟩
  | .local _ .vmem, ⟨3, _⟩ => ⟨S64x32x64, .f32⟩
  | .local _ .vmem, ⟨4, _⟩ => ⟨S64x32x512, .f32⟩
  | .local _ .vmem, ⟨5, _⟩ => ⟨S64x32x512, .f32⟩
  | _, _ => ⟨S1024x512x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_c : Ref sig .tc := ⟨.hbm, 16, rfl⟩
abbrev main_call0_c_0 : Ref sig .tc := ⟨.hbm, 17, rfl⟩
abbrev main_call0_v1_0 : Ref sig .tc := ⟨.hbm, 18, rfl⟩
abbrev main_v11 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024x8x8_S1024x64 : S1024x8x8.ShapeCasts S1024x64
  bcast_S_S32 : S_.BroadcastsInDim S32 (![] : Fin 0 → Fin S32.rank)
  bcast_S1024x64_S1024x1x64_0_2 : S1024x64.BroadcastsInDim S1024x1x64 (![0, 2] : Fin 2 → Fin S1024x1x64.rank)
  bcast_S32_S1x32x1_1 : S32.BroadcastsInDim S1x32x1 (![1] : Fin 1 → Fin S1x32x1.rank)
  bcast_S1024x1x64_S1024x32x64_0_1_2 : S1024x1x64.BroadcastsInDim S1024x32x64 (![0, 1, 2] : Fin 3 → Fin S1024x32x64.rank)
  bcast_S1x32x1_S1024x32x64_0_1_2 : S1x32x1.BroadcastsInDim S1024x32x64 (![0, 1, 2] : Fin 3 → Fin S1024x32x64.rank)
  reducesTo_S1024x32x64_S1024x32_d2 : S1024x32x64.ReducesTo [2] S1024x32
  h_S_ : 0 < S_.numel
  natLt_1_32 : 1 < 32
  bcast_S1024x32_S1024x32x1_0_1 : S1024x32.BroadcastsInDim S1024x32x1 (![0, 1] : Fin 2 → Fin S1024x32x1.rank)
  bcast_S1024x32x1_S1024x32x64_0_1_2 : S1024x32x1.BroadcastsInDim S1024x32x64 (![0, 1, 2] : Fin 3 → Fin S1024x32x64.rank)
  bcast_S1x1x64_S1024x32x64_0_1_2 : S1x1x64.BroadcastsInDim S1024x32x64 (![0, 1, 2] : Fin 3 → Fin S1024x32x64.rank)
  shapeCasts_S1024x512x8x8_S1024x512x64 : S1024x512x8x8.ShapeCasts S1024x512x64
  inb_S64x512x64_S64x512x64_0_0_0 : ∀ a, (![0, 0, 0] : Fin 3 → Nat) a + S64x512x64.size a ≤ S64x512x64.size a
  h_S64x512x64 : 0 < S64x512x64.numel
  shapeCasts_S64x512x64_S64x512x64 : S64x512x64.ShapeCasts S64x512x64
  bitsLt_bf16_f32 : FTy.bits .bf16 < FTy.bits .f32
  inb_S64x32x64_S64x32x64_0_0_0 : ∀ a, (![0, 0, 0] : Fin 3 → Nat) a + S64x32x64.size a ≤ S64x32x64.size a
  h_S64x32x64 : 0 < S64x32x64.numel
  shapeCasts_S64x32x64_S64x32x64 : S64x32x64.ShapeCasts S64x32x64
  inb_S64x32x512_S64x32x512_0_0_0 : ∀ a, (![0, 0, 0] : Fin 3 → Nat) a + S64x32x512.size a ≤ S64x32x512.size a
  h_S64x32x512 : 0 < S64x32x512.numel
  dot_S64x32x64_S64x512x64_S64x32x512_2_2_1_1_0_0_wf : DotDims.WF S64x32x64 S64x512x64 S64x32x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512x64.size a ≤ S1024x512x64.size a
  hwx0_0 : ∀ i : grid0.Coords, EltTy.bits .f32 = 32 ∨ (Rect.block (s := S1024x512x64) S64x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32x64.size a ≤ S1024x32x64.size a
  hwx0_1 : ∀ i : grid0.Coords, EltTy.bits .f32 = 32 ∨ (Rect.block (s := S1024x32x64) S64x32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x32x512.size a ≤ S1024x32x512.size a
  hwx0_2 : ∀ i : grid0.Coords, EltTy.bits .f32 = 32 ∨ (Rect.block (s := S1024x32x512) S64x32x512.size (cc0_transform_2 i) (hinb0_2 i)).WholeWords (EltTy.packing .f32)

variable [Facts₀]

def reducer_argmax_i32_i32 : BitVec 32 × BitVec 32 → BitVec 32 × BitVec 32 → BitVec 32 × BitVec 32 :=
  fun a b =>
    let v2 := IntOp.cmpi .sgt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S64x32x64_S64x512x64_S64x32x512_2_2_1_1_0_0 : DotDims S64x32x64 S64x512x64 S64x32x512 where
  lhsContracting := [2]
  rhsContracting := [2]
  lhsNonContracting := [1]
  rhsNonContracting := [1]
  lhsBatch := [0]
  rhsBatch := [0]
  wf := dot_S64x32x64_S64x512x64_S64x32x512_2_2_1_1_0_0_wf

abbrev win0_0 : Pipeline.Window sig grid0 :=
  Pipeline.Window.ofSpec (Memref.whole main_v17) S64x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S64x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S64x32x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512x8x8 : Shape := ⟨4, ![1024, 512, 8, 8]⟩
abbrev S1024x8x8 : Shape := ⟨3, ![1024, 8, 8]⟩
abbrev S1024x64 : Shape := ⟨2, ![1024, 64]⟩
abbrev S32 : Shape := ⟨1, ![32]⟩
abbrev S_ : Shape := ⟨0, ![]⟩
abbrev S1024x1x64 : Shape := ⟨3, ![1024, 1, 64]⟩
abbrev S1x32x1 : Shape := ⟨3, ![1, 32, 1]⟩
abbrev S1024x32x64 : Shape := ⟨3, ![1024, 32, 64]⟩
abbrev S1024x32 : Shape := ⟨2, ![1024, 32]⟩
abbrev S1024x512x64 : Shape := ⟨3, ![1024, 512, 64]⟩
abbrev S1024x64x512 : Shape := ⟨3, ![1024, 64, 512]⟩
abbrev S1024x32x1 : Shape := ⟨3, ![1024, 32, 1]⟩
abbrev S1 : Shape := ⟨1, ![1]⟩
abbrev S1x1x1 : Shape := ⟨3, ![1, 1, 1]⟩
abbrev S1024x32x512 : Shape := ⟨3, ![1024, 32, 512]⟩

abbrev nBuf : Space → Nat
  | .hbm => 49
  | .vmem => 0
  | .smem => 0
  | _ => 0

abbrev bufTy : (tb : Table) → Fin (tcTables nBuf tb) → BufTy
  | .hbm, ⟨0, _⟩ => ⟨S1024x512x8x8, .f32⟩
  | .hbm, ⟨1, _⟩ => ⟨S1024x8x8, .i32⟩
  | .hbm, ⟨2, _⟩ => ⟨S1024x64, .i32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S1024x1x64, .i32⟩
  | .hbm, ⟨8, _⟩ => ⟨S1x32x1, .i32⟩
  | .hbm, ⟨9, _⟩ => ⟨S1024x32x64, .i32⟩
  | .hbm, ⟨10, _⟩ => ⟨S1024x32x64, .i32⟩
  | .hbm, ⟨11, _⟩ => ⟨S1024x32x64, .i1⟩
  | .hbm, ⟨12, _⟩ => ⟨S_, .i1⟩
  | .hbm, ⟨13, _⟩ => ⟨S1024x32, .i1⟩
  | .hbm, ⟨14, _⟩ => ⟨S1024x32x64, .i32⟩
  | .hbm, ⟨15, _⟩ => ⟨S_, .i1⟩
  | .hbm, ⟨16, _⟩ => ⟨S_, .i32⟩
  | .hbm, ⟨17, _⟩ => ⟨S1024x32, .i1⟩
  | .hbm, ⟨18, _⟩ => ⟨S1024x32, .i32⟩
  | .hbm, ⟨19, _⟩ => ⟨S1024x512x64, .f32⟩
  | .hbm, ⟨20, _⟩ => ⟨S1024x64x512, .f32⟩
  | .hbm, ⟨21, _⟩ => ⟨S1024x32x1, .i32⟩
  | .hbm, ⟨22, _⟩ => ⟨S_, .i32⟩
  | .hbm, ⟨23, _⟩ => ⟨S1024x32x1, .i32⟩
  | .hbm, ⟨24, _⟩ => ⟨S1024x32x1, .i1⟩
  | .hbm, ⟨25, _⟩ => ⟨S_, .i32⟩
  | .hbm, ⟨26, _⟩ => ⟨S1024x32x1, .i32⟩
  | .hbm, ⟨27, _⟩ => ⟨S1024x32x1, .i32⟩
  | .hbm, ⟨28, _⟩ => ⟨S1024x32x1, .i32⟩
  | .hbm, ⟨29, _⟩ => ⟨S1, .i32⟩
  | .hbm, ⟨30, _⟩ => ⟨S_, .i32⟩
  | .hbm, ⟨31, _⟩ => ⟨S1024x32x1, .i32⟩
  | .hbm, ⟨32, _⟩ => ⟨S1024x32x1, .i1⟩
  | .hbm, ⟨33, _⟩ => ⟨S1x1x1, .i32⟩
  | .hbm, ⟨34, _⟩ => ⟨S1024x32x1, .i32⟩
  | .hbm, ⟨35, _⟩ => ⟨S1024x32x1, .i1⟩
  | .hbm, ⟨36, _⟩ => ⟨S1024x32x1, .i1⟩
  | .hbm, ⟨37, _⟩ => ⟨S_, .i1⟩
  | .hbm, ⟨38, _⟩ => ⟨S1024x32, .i1⟩
  | .hbm, ⟨39, _⟩ => ⟨S1024x32x512, .f32⟩
  | .hbm, ⟨40, _⟩ => ⟨S1024x32x512, .i1⟩
  | .hbm, ⟨41, _⟩ => ⟨S_, .f32⟩
  | .hbm, ⟨42, _⟩ => ⟨S1024x32x512, .f32⟩
  | .hbm, ⟨43, _⟩ => ⟨S1024x32x512, .f32⟩
  | .hbm, ⟨44, _⟩ => ⟨S1024x32x1, .i1⟩
  | .hbm, ⟨45, _⟩ => ⟨S_, .f32⟩
  | .hbm, ⟨46, _⟩ => ⟨S1024x32x512, .i1⟩
  | .hbm, ⟨47, _⟩ => ⟨S1024x32x512, .f32⟩
  | .hbm, ⟨48, _⟩ => ⟨S1024x32x512, .f32⟩
  | _, _ => ⟨S1024x512x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_call0_v0 : Ref sig .tc := ⟨.hbm, 14, rfl⟩
abbrev main_call0_c : Ref sig .tc := ⟨.hbm, 15, rfl⟩
abbrev main_call0_c_0 : Ref sig .tc := ⟨.hbm, 16, rfl⟩
abbrev main_call0_v1_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_c_2 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_c_3 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v14 : Ref sig .tc := ⟨.hbm, 43, rfl⟩
abbrev main_v15 : Ref sig .tc := ⟨.hbm, 44, rfl⟩
abbrev main_cst : Ref sig .tc := ⟨.hbm, 45, rfl⟩
abbrev main_call2_v0 : Ref sig .tc := ⟨.hbm, 46, rfl⟩
abbrev main_call2_v1 : Ref sig .tc := ⟨.hbm, 47, rfl⟩
abbrev main_v16 : Ref sig .tc := ⟨.hbm, 48, rfl⟩

abbrev nD : Nat := 1
abbrev τ : Topo := Topo.v7x

variable {F : FTy → Type} [FloatOps F]

class Facts₀ : Prop where
  shapeCasts_S1024x8x8_S1024x64 : S1024x8x8.ShapeCasts S1024x64
  bcast_S_S32 : S_.BroadcastsInDim S32 (![] : Fin 0 → Fin S32.rank)
  bcast_S1024x64_S1024x1x64_0_2 : S1024x64.BroadcastsInDim S1024x1x64 (![0, 2] : Fin 2 → Fin S1024x1x64.rank)
  bcast_S32_S1x32x1_1 : S32.BroadcastsInDim S1x32x1 (![1] : Fin 1 → Fin S1x32x1.rank)
  bcast_S1024x1x64_S1024x32x64_0_1_2 : S1024x1x64.BroadcastsInDim S1024x32x64 (![0, 1, 2] : Fin 3 → Fin S1024x32x64.rank)
  bcast_S1x32x1_S1024x32x64_0_1_2 : S1x32x1.BroadcastsInDim S1024x32x64 (![0, 1, 2] : Fin 3 → Fin S1024x32x64.rank)
  reducesTo_S1024x32x64_S1024x32_d2 : S1024x32x64.ReducesTo [2] S1024x32
  h_S_ : 0 < S_.numel
  shapeCasts_S1024x512x8x8_S1024x512x64 : S1024x512x8x8.ShapeCasts S1024x512x64
  transposes_S1024x512x64_S1024x64x512_0_2_1 : S1024x512x64.Transposes [0, 2, 1] S1024x64x512
  bcast_S1024x32_S1024x32x1_0_1 : S1024x32.BroadcastsInDim S1024x32x1 (![0, 1] : Fin 2 → Fin S1024x32x1.rank)
  bcast_S_S1024x32x1 : S_.BroadcastsInDim S1024x32x1 (![] : Fin 0 → Fin S1024x32x1.rank)
  bcast_S1_S1x1x1_2 : S1.BroadcastsInDim S1x1x1 (![2] : Fin 1 → Fin S1x1x1.rank)
  bcast_S1x1x1_S1024x32x1_0_1_2 : S1x1x1.BroadcastsInDim S1024x32x1 (![0, 1, 2] : Fin 3 → Fin S1024x32x1.rank)
  reducesTo_S1024x32x1_S1024x32_d2 : S1024x32x1.ReducesTo [2] S1024x32
  bcast_S1024x32_S1024x32x512_0_1 : S1024x32.BroadcastsInDim S1024x32x512 (![0, 1] : Fin 2 → Fin S1024x32x512.rank)
  bcast_S_S1024x32x512 : S_.BroadcastsInDim S1024x32x512 (![] : Fin 0 → Fin S1024x32x512.rank)
  bcast_S1024x32x1_S1024x32x512_0_1_2 : S1024x32x1.BroadcastsInDim S1024x32x512 (![0, 1, 2] : Fin 3 → Fin S1024x32x512.rank)
  gather_S1024x64x512_S1024x32x1_S1024x32x512_2_1_0_0_1_2_11512_wf : GatherDims.WF S1024x64x512 S1024x32x1 S1024x32x512 [2] [1] [0] [1] [0] 2 ![1, 1, 512]

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S1024x64x512_S1024x32x1_S1024x32x512_2_1_0_0_1_2_11512 : GatherDims S1024x64x512 S1024x32x1 S1024x32x512 where
  offsetDims := [2]
  collapsedSliceDims := [1]
  operandBatchingDims := [0]
  startIndicesBatchingDims := [0]
  startIndexMap := [1]
  indexVectorDim := 2
  sliceSizes := ![1, 1, 512]
  wf := gather_S1024x64x512_S1024x32x1_S1024x32x512_2_1_0_0_1_2_11512_wf

class Facts : Prop extends Facts₀ where

variable [Facts]
-- ==== Proof.KernelArray.lean ====
/-
  The kernel's output array after the run, index by index. Grid point t handles boards 64 t … 64 t + 63: it loads
  their selector rows and board vectors, contracts the cell axis on the matrix unit into a zero accumulator, and
  stores the 64 × 32 × 512 block whole. So entry (b, p, q) of the final array is the sum over the 64 cells s of
  selector (b, p, s) times board vector (b, q, s), both read from the arrays as the region finds them.
-/
import proofs.«154374_j19061064860376_1_alg».proof.Proof.Gen.KernelIdeal.Value
import Idealize.ShloMosaic.Lib.ValueIdx
import Idealize.ShloMosaic.Lib.Pipeline.Value
import Idealize.ShloMosaic.PureOps.Ideal.Laws

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The selector array as the region finds it. -/
abbrev selArr (c : Dev nD) : FVec Ideal S1024x32x64 .f32 := V m c main_v16
/-- The board vectors (board axes merged) as the region finds them. -/
abbrev cellArr (c : Dev nD) : FVec Ideal S1024x512x64 .f32 := V m c main_v17
/-- The output array after the last grid point. -/
abbrev outArr (c : Dev nD) : FVec Ideal S1024x32x512 .f32 := (dats m 0 c).arrAt 2 cfg0.N

/-! ## The matrix unit's contraction at an index

The dimension numbers: batch axis 0 on both operands, free axis 1 on both, contracted axis 2 on both; the output's
axes are the batch axis, the selector's free axis, the board block's free axis. -/

/-- The selector operand's batch coordinate is the output's. -/
theorem lhs_contract_0 (i : S64x32x512.Idx) (k : dot_S64x32x64_S64x512x64_S64x32x512_2_2_1_1_0_0.contr.Idx) :
    (dot_S64x32x64_S64x512x64_S64x32x512_2_2_1_1_0_0.lhsIdx i k 0).val = (i 0).val := by
  unfold DotDims.lhsIdx
  rw [dif_pos (show (0 : Fin S64x32x64.rank) ∈ dot_S64x32x64_S64x512x64_S64x32x512_2_2_1_1_0_0.lhsBatch by decide)]
  rfl
/-- The selector operand's free coordinate is the output's middle one. -/
theorem lhs_contract_1 (i : S64x32x512.Idx) (k : dot_S64x32x64_S64x512x64_S64x32x512_2_2_1_1_0_0.contr.Idx) :
    (dot_S64x32x64_S64x512x64_S64x32x512_2_2_1_1_0_0.lhsIdx i k 1).val = (i 1).val := by
  unfold DotDims.lhsIdx
  rw [dif_neg (show ¬(1 : Fin S64x32x64.rank) ∈ dot_S64x32x64_S64x512x64_S64x32x512_2_2_1_1_0_0.lhsBatch by decide),
    dif_pos (show (1 : Fin S64x32x64.rank) ∈ dot_S64x32x64_S64x512x64_S64x32x512_2_2_1_1_0_0.lhsNonContracting by decide)]
  rfl
/-- The selector operand's contracted coordinate is the contraction position. -/
theorem lhs_contract_2 (i : S64x32x512.Idx) (k : dot_S64x32x64_S64x512x64_S64x32x512_2_2_1_1_0_0.contr.Idx) :
    (dot_S64x32x64_S64x512x64_S64x32x512_2_2_1_1_0_0.lhsIdx i k 2).val = (k ⟨0, by decide⟩).val :=
  dot_S64x32x64_S64x512x64_S64x32x512_2_2_1_1_0_0.lhsIdx_val_of_single rfl i k
/-- The board operand's batch coordinate is the output's. -/
theorem rhs_contract_0 (i : S64x32x512.Idx) (k : dot_S64x32x64_S64x512x64_S64x32x512_2_2_1_1_0_0.contr.Idx) :
    (dot_S64x32x64_S64x512x64_S64x32x512_2_2_1_1_0_0.rhsIdx i k 0).val = (i 0).val := by
  unfold DotDims.rhsIdx
  rw [dif_pos (show (0 : Fin S64x512x64.rank) ∈ dot_S64x32x64_S64x512x64_S64x32x512_2_2_1_1_0_0.rhsBatch by decide)]
  rfl
/-- The board operand's free coordinate is the output's last one. -/
theorem rhs_contract_1 (i : S64x32x512.Idx) (k : dot_S64x32x64_S64x512x64_S64x32x512_2_2_1_1_0_0.contr.Idx) :
    (dot_S64x32x64_S64x512x64_S64x32x512_2_2_1_1_0_0.rhsIdx i k 1).val = (i 2).val := by
  unfold DotDims.rhsIdx
  rw [dif_neg (show ¬(1 : Fin S64x512x64.rank) ∈ dot_S64x32x64_S64x512x64_S64x32x512_2_2_1_1_0_0.rhsBatch by decide),
    dif_pos (show (1 : Fin S64x512x64.rank) ∈ dot_S64x32x64_S64x512x64_S64x32x512_2_2_1_1_0_0.rhsNonContracting by decide)]
  rfl
/-- The board operand's contracted coordinate is the contraction position. -/
theorem rhs_contract_2 (i : S64x32x512.Idx) (k : dot_S64x32x64_S64x512x64_S64x32x512_2_2_1_1_0_0.contr.Idx) :
    (dot_S64x32x64_S64x512x64_S64x32x512_2_2_1_1_0_0.rhsIdx i k 2).val = (k ⟨0, by decide⟩).val :=
  dot_S64x32x64_S64x512x64_S64x32x512_2_2_1_1_0_0.rhsIdx_val_of_single rfl i k

/-- The block product into the zero accumulator, at (b, p, q): the sum over the 64 cells of selector (b, p, s) times
    board vector (b, q, s). -/
theorem contract_apply {φ₁ φ₂ : FTy} (l : FVec Ideal S64x32x64 φ₁) (r : FVec Ideal S64x512x64 φ₂)
    (b : Fin 64) (p : Fin 32) (q : Fin 512) :
    matmul dot_S64x32x64_S64x512x64_S64x32x512_2_2_1_1_0_0 none l r (constant (F := Ideal) S64x32x512 .f32 0x00000000#32) (ix3 b p q)
      = ∑ s : Fin 64, l (ix3 b p s) * r (ix3 b q s) := by
  show FloatOps.matmul _ none l r _ (ix3 b p q) = _
  rw [Ideal.matmul_constant_zero_apply,
    ← Equiv.sum_comp (contrEquiv1 dot_S64x32x64_S64x512x64_S64x32x512_2_2_1_1_0_0 64 rfl rfl).symm]
  refine Finset.sum_congr rfl fun s _ => ?_
  have hs := contrEquiv1_symm_val dot_S64x32x64_S64x512x64_S64x32x512_2_2_1_1_0_0 64 rfl rfl s
  have el : dot_S64x32x64_S64x512x64_S64x32x512_2_2_1_1_0_0.lhsIdx (ix3 b p q)
      ((contrEquiv1 dot_S64x32x64_S64x512x64_S64x32x512_2_2_1_1_0_0 64 rfl rfl).symm s) = ix3 b p s :=
    funext fun a => Fin.ext (by
      match a with
      | ⟨0, _⟩ => exact lhs_contract_0 _ _
      | ⟨1, _⟩ => exact lhs_contract_1 _ _
      | ⟨2, _⟩ => exact (lhs_contract_2 _ _).trans hs)
  have er : dot_S64x32x64_S64x512x64_S64x32x512_2_2_1_1_0_0.rhsIdx (ix3 b p q)
      ((contrEquiv1 dot_S64x32x64_S64x512x64_S64x32x512_2_2_1_1_0_0 64 rfl rfl).symm s) = ix3 b q s :=
    funext fun a => Fin.ext (by
      match a with
      | ⟨0, _⟩ => exact rhs_contract_0 _ _
      | ⟨1, _⟩ => exact rhs_contract_1 _ _
      | ⟨2, _⟩ => exact (rhs_contract_2 _ _).trans hs)
  rw [el, er]

/-- What the body stores, at (b, p, q) of its block: the casts and the format changes are the identity at the ideal
    values, so it is the contraction of the loaded selector block with the loaded board block. -/
theorem payload_apply (x0 : Vec Ideal S64x512x64 .f32) (x1 : Vec Ideal S64x32x64 .f32)
    (b : Fin 64) (p : Fin 32) (q : Fin 512) :
    k0_pay1 x0 x1 (ix3 b p q) = ∑ s : Fin 64, x1 (ix3 b p s) * x0 (ix3 b q s) := by
  unfold k0_pay1
  refine (contract_apply _ _ b p q).trans ?_
  refine Finset.sum_congr rfl fun s _ => ?_
  rw [truncf_apply, truncf_apply, shapeCast_self, shapeCast_self]

/-! ## From the blocks to the array -/

/-- The zero offsets of a whole-block access, as a constant function. -/
theorem zero_offsets : (![0, 0, 0] : Fin 3 → Nat) = fun _ => 0 := funext fun a => by fin_cases a <;> rfl

/-- The whole output array as ONE function of the selector array and the board vectors: at (b, p, q) the sum over the
    64 cells s of selector (b, p, s) times board vector (b, q, s). -/
def contraction (sel : FVec Ideal S1024x32x64 .f32) (cells : FVec Ideal S1024x512x64 .f32) :
    FVec Ideal S1024x32x512 .f32 := fun i =>
  ∑ s : Fin 64, sel (ix3 (⟨(i 0).val, (i 0).isLt⟩ : Fin 1024) (⟨(i 1).val, (i 1).isLt⟩ : Fin 32) s)
    * cells (ix3 (⟨(i 0).val, (i 0).isLt⟩ : Fin 1024) (⟨(i 2).val, (i 2).isLt⟩ : Fin 512) s)

/-- The printed index maps at each of the 16 grid points: the three windows move together along the board axis, point t
    at block t, and stay at block 0 on the other two axes. -/
theorem block_index : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- WHAT POINT t WRITES BACK is block t of the contraction of the two arrays as the region finds them. -/
theorem flushed_eq (c : Dev nD) (t : Fin cfg0.N) :
    (dats m 0 c).flushed 2 t
      = ((cfg0.win 2).blk t).view.read (Elt Ideal) (contraction (selArr m c) (cellArr m c)) := by
  rw [Value.flushed2]
  unfold out0_2
  rw [View.canon_unit_zero zero_offsets]
  simp only [View.ld_unit_zero (S := S64x512x64) zero_offsets, View.ld_unit_zero (S := S64x32x64) zero_offsets]
  obtain ⟨e00, e01, e02, e10, e11, e12, e20, e21, e22⟩ := block_index t
  funext j
  obtain ⟨b, p, q, rfl⟩ : ∃ (b : Fin 64) (p : Fin 32) (q : Fin 512), j = ix3 b p q := ⟨j 0, j 1, j 2, eq_ix3 j⟩
  show k0_pay1 (iblk m c 0 t) (iblk m c 1 t) (ix3 b p q)
    = contraction (selArr m c) (cellArr m c) (((cfg0.win 2).blk t).view.emb (ix3 b p q))
  refine (payload_apply (iblk m c 0 t) (iblk m c 1 t) b p q).trans ?_
  unfold contraction
  refine Finset.sum_congr rfl fun s _ => ?_
  refine congrArg₂ (· * ·) ?_ ?_
  · show V m c main_v16 (((cfg0.win 1).blk t).view.emb (ix3 b p s)) = V m c main_v16 _
    refine congrArg (V m c main_v16) (funext fun a => Fin.ext ?_)
    match a with
    | ⟨0, _⟩ =>
      show win0_1.index t (0 : Fin 3) * 64 + 1 * b.val = win0_2.index t (0 : Fin 3) * 64 + 1 * b.val
      omega
    | ⟨1, _⟩ =>
      show win0_1.index t (1 : Fin 3) * 32 + 1 * p.val = win0_2.index t (1 : Fin 3) * 32 + 1 * p.val
      omega
    | ⟨2, _⟩ =>
      show win0_1.index t (2 : Fin 3) * 64 + 1 * s.val = s.val
      omega
  · show V m c main_v17 (((cfg0.win 0).blk t).view.emb (ix3 b q s)) = V m c main_v17 _
    refine congrArg (V m c main_v17) (funext fun a => Fin.ext ?_)
    match a with
    | ⟨0, _⟩ =>
      show win0_0.index t (0 : Fin 3) * 64 + 1 * b.val = win0_2.index t (0 : Fin 3) * 64 + 1 * b.val
      omega
    | ⟨1, _⟩ =>
      show win0_0.index t (1 : Fin 3) * 512 + 1 * q.val = win0_2.index t (2 : Fin 3) * 512 + 1 * q.val
      omega
    | ⟨2, _⟩ =>
      show win0_0.index t (2 : Fin 3) * 64 + 1 * s.val = s.val
      omega

/-- An index of the output array is in point t's block iff each coordinate is in the block's range on its axis. -/
theorem mem_block (t : Fin cfg0.N) (i : S1024x32x512.Idx) :
    i ∈ ((cfg0.win 2).blk t).view.set ↔ ∀ a : Fin 3, win0_2.index t a * S64x32x512.size a ≤ (i a).val
      ∧ (i a).val < win0_2.index t a * S64x32x512.size a + S64x32x512.size a := by
  show i ∈ ((View.whole main_v18).slice (win0_2.rect t)).set ↔ _
  rw [View.set_slice_whole, Rect.mem_set_unit]
  exact Iff.rfl

/-- Every index of the output array is in some point's block: board b is handled by point b / 64. -/
theorem covered (i : S1024x32x512.Idx) :
    ∃ t : Fin cfg0.N, (cfg0.win 2).flush t = true ∧ i ∈ ((cfg0.win 2).blk t).view.set := by
  have hi0 : (i 0).val < 1024 := (i 0).isLt
  have hi1 : (i 1).val < 32 := (i 1).isLt
  have hi2 : (i 2).val < 512 := (i 2).isLt
  obtain ⟨t, ht⟩ : ∃ t : Fin cfg0.N, t.val = (i 0).val / 64 :=
    ⟨⟨(i 0).val / 64, by rw [show cfg0.N = 16 from N_0]; omega⟩, rfl⟩
  obtain ⟨-, -, -, -, -, -, e20, e21, e22⟩ := block_index t
  refine ⟨t, flush0_2 t, ?_⟩
  rw [mem_block]
  intro a
  match a with
  | ⟨0, _⟩ =>
    show win0_2.index t (0 : Fin 3) * 64 ≤ (i 0).val ∧ (i 0).val < win0_2.index t (0 : Fin 3) * 64 + 64
    omega
  | ⟨1, _⟩ =>
    show win0_2.index t (1 : Fin 3) * 32 ≤ (i 1).val ∧ (i 1).val < win0_2.index t (1 : Fin 3) * 32 + 32
    omega
  | ⟨2, _⟩ =>
    show win0_2.index t (2 : Fin 3) * 512 ≤ (i 2).val ∧ (i 2).val < win0_2.index t (2 : Fin 3) * 512 + 512
    omega

/-- THE ARRAY after the run is the contraction of the two arrays as the region finds them. -/
theorem outArr_eq (c : Dev nD) : outArr m c = contraction (selArr m c) (cellArr m c) :=
  (dats m 0 c).arrAt_eq_of_cover 2 (contraction (selArr m c) (cellArr m c)) (fun t _ => flushed_eq m c t) covered

/-- Entry (b, p, q) of the output array is the contraction over the 64 cells of the selector row (b, p) with the
    board vector row (b, q). -/
theorem outArr_apply (c : Dev nD) (b : Fin 1024) (p : Fin 32) (q : Fin 512) :
    outArr m c (ix3 b p q) = ∑ s : Fin 64, selArr m c (ix3 b p s) * cellArr m c (ix3 b q s) := by
  rw [outArr_eq]
  rfl

end Cert.KernelIdeal.ArrayValue

end
-- ==== Proof.LibArgmaxFold.lean ====
/-
  jax lowers an integer arg-max along an axis to a two-operand reduce over (value, index) pairs whose body keeps the
  greater value and, on equal values, the smaller index. Read as a left fold from an initial pair over a list of
  elements, two such folds are compared here: one over 32-bit values that are a 0/1 mask widened, from the least
  signed value; one over the 1-bit mask itself, compared unsigned, from false. Both start at index 0.
  * Once the mask holds a one somewhere in the list, the two folds end at the same index.
  * The index a fold ends at is the initial 0 or one of the list's indices, so it obeys any bound they all obey.
  * A fold by "or" from 0 that ends at 1 has met a 1.
-/
import Idealize.ShloMosaic.PureOps

namespace ArgmaxFold

open Idealize.ShloMosaic

/-- The arg-max body on pairs of 32-bit words, values compared signed: the accumulated pair `a` is kept when its value
    is greater; on equal values the smaller index is kept; otherwise the element `b` replaces it. -/
def stepS32 : BitVec 32 × BitVec 32 → BitVec 32 × BitVec 32 → BitVec 32 × BitVec 32 :=
  fun a b =>
    let v2 := IntOp.cmpi .sgt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

/-- The same body on a 1-bit value (compared unsigned) and a 32-bit index. -/
def stepU1 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

variable {ι : Type}

/-- A one-bit word is 0 or 1. -/
private theorem bv1_cases (b : BitVec 1) : b = 0#1 ∨ b = 1#1 := by
  revert b; decide

/-- The "or" fold from any start: ending at 1, either the start was 1 or a 1 was met. -/
private theorem foldl_ori_aux (l : List ι) (m : ι → BitVec 1) (acc : BitVec 1)
    (h : l.foldl (fun r n => IntOp.ori r (m n)) acc = 1#1) : acc = 1#1 ∨ ∃ n ∈ l, m n = 1#1 := by
  induction l generalizing acc with
  | nil => exact Or.inl h
  | cons a t ih =>
    rw [List.foldl_cons] at h
    rcases ih _ h with h1 | ⟨n, hn, hm⟩
    · rcases bv1_cases acc with ha | ha
      · -- 0 ||| b = b, so the element itself is 1
        subst ha
        refine Or.inr ⟨a, List.mem_cons_self, ?_⟩
        simpa [IntOp.ori] using h1
      · exact Or.inl ha
    · exact Or.inr ⟨n, List.mem_cons_of_mem _ hn, hm⟩

/-- A fold by "or" from 0 that ends at 1 has met a 1. -/
theorem exists_of_foldl_ori (l : List ι) (m : ι → BitVec 1)
    (h : l.foldl (fun r n => IntOp.ori r (m n)) 0#1 = 1#1) : ∃ n ∈ l, m n = 1#1 := by
  rcases foldl_ori_aux l m 0#1 h with h0 | h0
  · exact absurd h0 (by decide)
  · exact h0

/-- A one has been met: the 1-bit value is true, the 32-bit value is 1, and the indices agree. -/
private def Seen (ak : BitVec 32 × BitVec 32) (ar : BitVec 1 × BitVec 32) : Prop :=
  ar.1 = 1#1 ∧ ak.1 = 1#32 ∧ ak.2 = ar.2

/-- No one has been met: the 1-bit value is false, the 32-bit value is 0 or the least signed value. -/
private def NotYet (ak : BitVec 32 × BitVec 32) (ar : BitVec 1 × BitVec 32) : Prop :=
  ar.1 = 0#1 ∧ (ak.1 = 0#32 ∨ ak.1 = 2147483648#32)

/-- Once a one has been met, every further element keeps it so: a 0 element loses to the value 1 on both
    sides; a 1 element ties on both sides, and the tie is settled by the same index comparison. -/
private theorem seen_step (ak : BitVec 32 × BitVec 32) (ar : BitVec 1 × BitVec 32) (mb : BitVec 1)
    (i : BitVec 32) (hs : Seen ak ar) : Seen (stepS32 ak (mb.setWidth 32, i)) (stepU1 ar (mb, i)) := by
  obtain ⟨v, j⟩ := ak
  obtain ⟨b, j'⟩ := ar
  obtain ⟨hb, hv, hj⟩ := hs
  simp only at hb hv hj
  subst hb hv hj
  simp only [Seen, stepS32, stepU1]
  generalize IntOp.cmpi .slt j i = c
  rcases bv1_cases mb with rfl | rfl <;> rcases bv1_cases c with rfl | rfl <;>
    simp [IntOp.cmpi, IntOp.ori, IntOp.andi, Scalar.select]

/-- Before any one, a 1 element wins on both sides (1 exceeds 0 and the least signed value; true exceeds false),
    so both take its index. -/
private theorem notyet_step_one (ak : BitVec 32 × BitVec 32) (ar : BitVec 1 × BitVec 32) (i : BitVec 32)
    (hn : NotYet ak ar) : Seen (stepS32 ak ((1#1).setWidth 32, i)) (stepU1 ar (1#1, i)) := by
  obtain ⟨v, j⟩ := ak
  obtain ⟨b, j'⟩ := ar
  obtain ⟨hb, hv⟩ := hn
  simp only at hb hv
  subst hb
  simp only [Seen, stepS32, stepU1]
  generalize IntOp.cmpi .slt j i = c
  generalize IntOp.cmpi .slt j' i = c'
  rcases hv with rfl | rfl <;> rcases bv1_cases c with rfl | rfl <;> rcases bv1_cases c' with rfl | rfl <;>
    simp [IntOp.cmpi, IntOp.ori, IntOp.andi, Scalar.select]

/-- Before any one, a 0 element leaves the 1-bit value false and the 32-bit value 0. -/
private theorem notyet_step_zero (ak : BitVec 32 × BitVec 32) (ar : BitVec 1 × BitVec 32) (i : BitVec 32)
    (hn : NotYet ak ar) : NotYet (stepS32 ak ((0#1).setWidth 32, i)) (stepU1 ar (0#1, i)) := by
  obtain ⟨v, j⟩ := ak
  obtain ⟨b, j'⟩ := ar
  obtain ⟨hb, hv⟩ := hn
  simp only at hb hv
  subst hb
  simp only [NotYet, stepS32, stepU1]
  generalize IntOp.cmpi .slt j i = c
  generalize IntOp.cmpi .slt j' i = c'
  rcases hv with rfl | rfl <;> rcases bv1_cases c with rfl | rfl <;> rcases bv1_cases c' with rfl | rfl <;>
    simp [IntOp.cmpi, IntOp.ori, IntOp.andi, Scalar.select]

/-- Having met a one is never lost along the list. -/
private theorem seen_foldl (l : List ι) (m : ι → BitVec 1) (y : ι → BitVec 32)
    (ak : BitVec 32 × BitVec 32) (ar : BitVec 1 × BitVec 32) (hs : Seen ak ar) :
    Seen (l.foldl (fun r n => stepS32 r ((m n).setWidth 32, y n)) ak)
      (l.foldl (fun r n => stepU1 r (m n, y n)) ar) := by
  induction l generalizing ak ar with
  | nil => exact hs
  | cons a t ih =>
    rw [List.foldl_cons, List.foldl_cons]
    exact ih _ _ (seen_step ak ar (m a) (y a) hs)

/-- From a state with no one met, a list holding a one ends with a one met. -/
private theorem notyet_foldl (l : List ι) (m : ι → BitVec 1) (y : ι → BitVec 32)
    (ak : BitVec 32 × BitVec 32) (ar : BitVec 1 × BitVec 32) (hn : NotYet ak ar)
    (h : ∃ n ∈ l, m n = 1#1) :
    Seen (l.foldl (fun r n => stepS32 r ((m n).setWidth 32, y n)) ak)
      (l.foldl (fun r n => stepU1 r (m n, y n)) ar) := by
  induction l generalizing ak ar with
  | nil => obtain ⟨n, hn', _⟩ := h; cases hn'
  | cons a t ih =>
    rw [List.foldl_cons, List.foldl_cons]
    rcases bv1_cases (m a) with ha | ha
    · -- the head is 0: the one is in the tail
      rw [ha]
      refine ih _ _ (notyet_step_zero ak ar (y a) hn) ?_
      obtain ⟨n, hmem, hm⟩ := h
      rcases List.mem_cons.mp hmem with rfl | ht
      · rw [ha] at hm; exact absurd hm (by decide)
      · exact ⟨n, ht, hm⟩
    · -- the head is 1: it is met now and kept
      rw [ha]
      exact seen_foldl t m y _ _ (notyet_step_one ak ar (y a) hn)

/-- With a one somewhere in the mask, the widened signed fold and the 1-bit unsigned fold end at the same index. -/
theorem index_eq (l : List ι) (m : ι → BitVec 1) (y : ι → BitVec 32) (h : ∃ n ∈ l, m n = 1#1) :
    (l.foldl (fun r n => stepS32 r ((m n).setWidth 32, y n)) (2147483648#32, 0#32)).2
      = (l.foldl (fun r n => stepU1 r (m n, y n)) (0#1, 0#32)).2 :=
  (notyet_foldl l m y (2147483648#32, 0#32) (0#1, 0#32) ⟨rfl, Or.inr rfl⟩ h).2.2

/-- The index a step returns is the accumulator's or the element's. -/
private theorem stepU1_snd (a b : BitVec 1 × BitVec 32) : (stepU1 a b).2 = a.2 ∨ (stepU1 a b).2 = b.2 := by
  simp only [stepU1, Scalar.select]
  split
  · exact Or.inl rfl
  · exact Or.inr rfl

/-- The fold's index from any start obeys a bound the start and every index of the list obey. -/
private theorem index_lt_aux (l : List ι) (m : ι → BitVec 1) (y : ι → BitVec 32) (K : Nat)
    (acc : BitVec 1 × BitVec 32) (hacc : acc.2.toNat < K) (hy : ∀ n ∈ l, (y n).toNat < K) :
    ((l.foldl (fun r n => stepU1 r (m n, y n)) acc).2).toNat < K := by
  induction l generalizing acc with
  | nil => exact hacc
  | cons a t ih =>
    rw [List.foldl_cons]
    refine ih _ ?_ (fun n hn => hy n (List.mem_cons_of_mem _ hn))
    rcases stepU1_snd acc (m a, y a) with h | h
    · rw [h]; exact hacc
    · rw [h]; exact hy a List.mem_cons_self

/-- The 1-bit fold's index obeys any positive bound every index of the list obeys. -/
theorem index_lt (l : List ι) (m : ι → BitVec 1) (y : ι → BitVec 32) (K : Nat) (hK : 0 < K)
    (hy : ∀ n ∈ l, (y n).toNat < K) :
    ((l.foldl (fun r n => stepU1 r (m n, y n)) (0#1, 0#32)).2).toNat < K :=
  index_lt_aux l m y K (0#1, 0#32) (by simpa using hK) hy

end ArgmaxFold
-- ==== Proof.Terms.lean ====
/-
  The values both programs compute from the board of piece ids before any float arithmetic, named once:
  the mask "cell s of board b holds piece p + 1", whether piece p occurs on board b, and the cell index an
  arg-max over the mask picks (in the kernel's spelling, over the mask widened to 32-bit words from the least
  signed value; in the reference's, over the 1-bit mask from false). The kernel's selector array is built on them:
  a one-hot row at the picked cell, times the indicator that the piece occurs.
-/
import proofs.«154374_j19061064860376_1_alg».proof.Proof.Gen.KernelIdeal
import proofs.«154374_j19061064860376_1_alg».proof.Proof.LibArgmaxFold

noncomputable section

namespace Cert.FirstMatch

open Cert.KernelIdeal Cert.KernelIdeal.Gen Idealize.ShloMosaic

variable {F : FTy → Type} [FloatOps F]

/-- `maskOf ids (b, p, s) = 1` exactly when cell `s` of board `b` (the 8 × 8 board read row-major) holds piece id `p + 1`. -/
def maskOf (ids : IVec S1024x8x8 32) : IVec S1024x32x64 1 :=
  cmpi .eq
    (broadcastInDim S1024x32x64 ![0, 1, 2] bcast_S1024x1x64_S1024x32x64_0_1_2
      (broadcastInDim S1024x1x64 ![0, 2] bcast_S1024x64_S1024x1x64_0_2 (shapeCast S1024x64 ids shapeCasts_S1024x8x8_S1024x64)))
    (broadcastInDim S1024x32x64 ![0, 1, 2] bcast_S1x32x1_S1024x32x64_0_1_2
      (broadcastInDim S1x32x1 ![1] bcast_S32_S1x32x1_1
        (addi (broadcastInDim S32 ![] bcast_S_S32 (constantI S_ 32 1#32)) (iotaInDim S32 32 0))))

/-- Whether piece `p + 1` occurs on board `b`: the "or" of the mask along the cells. -/
def presentOf (ids : IVec S1024x8x8 32) : IVec S1024x32 1 :=
  Host.reduce IntOp.ori (maskOf ids) (constantI S_ 1 0#1) reducesTo_S1024x32x64_S1024x32_d2 h_S_

/-- The cell the arg-max picks, in the kernel's spelling (32-bit 0/1 values from the least signed value). -/
def firstK (ids : IVec S1024x8x8 32) : IVec S1024x32 32 := fun j =>
  (Host.reduce2 ArgmaxFold.stepS32 (extui 32 (maskOf ids) natLt_1_32) (iotaInDim S1024x32x64 32 2)
    (constantI S_ 32 2147483648#32) (constantI S_ 32 0#32) reducesTo_S1024x32x64_S1024x32_d2 h_S_ j).2

/-- The cell the arg-max picks, in the reference's spelling (the 1-bit mask itself, from false). -/
def firstR (ids : IVec S1024x8x8 32) : IVec S1024x32 32 := fun j =>
  (Host.reduce2 ArgmaxFold.stepU1 (maskOf ids) (iotaInDim S1024x32x64 32 2)
    (constantI S_ 1 0#1) (constantI S_ 32 0#32) reducesTo_S1024x32x64_S1024x32_d2 h_S_ j).2

/-- The kernel's selector: row (b, p) is the one-hot vector of the picked cell, times the indicator that the piece occurs. -/
def selOf (ids : IVec S1024x8x8 32) : FVec F S1024x32x64 .f32 :=
  mulf
    (uitofp .f32 (cmpi .eq
      (broadcastInDim S1024x32x64 ![0, 1, 2] bcast_S1024x32x1_S1024x32x64_0_1_2
        (broadcastInDim S1024x32x1 ![0, 1] bcast_S1024x32_S1024x32x1_0_1 (firstK ids)))
      (broadcastInDim S1024x32x64 ![0, 1, 2] bcast_S1x1x64_S1024x32x64_0_1_2 (iotaInDim S1x1x64 32 2))))
    (broadcastInDim S1024x32x64 ![0, 1, 2] bcast_S1024x32x1_S1024x32x64_0_1_2
      (uitofp .f32 (broadcastInDim S1024x32x1 ![0, 1] bcast_S1024x32_S1024x32x1_0_1 (presentOf ids))))

/-- The board vectors with the two board axes merged: what both programs read the floats through. -/
def cellsOf (x : FVec F S1024x512x8x8 .f32) : FVec F S1024x512x64 .f32 :=
  shapeCast S1024x512x64 x shapeCasts_S1024x512x8x8_S1024x512x64

end Cert.FirstMatch

end
-- ==== Proof.KernelHost.lean ====
/-
  What the kernel's region finds in its two input arrays: the host operations before the launch leave the selector
  array at `selOf` of the piece ids and the merged-board array at `cellsOf` of the board vectors. The operations run
  in four stretches (the mask and its "or"; the arg-max; the one-hot rows; the product and the merged boards), and the
  contents after all of them are the last stretch's over the earlier ones'.
-/
import proofs.«154374_j19061064860376_1_alg».proof.Proof.Gen.KernelIdeal.Frame
import proofs.«154374_j19061064860376_1_alg».proof.Proof.Terms
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo

variable {F : FTy → Type} [FloatOps F]

/-- The contents after two lines run one after the other: the second's over the first's. -/
theorem after_append (l₁ l₂ : List (HloOp τ sig (Elt F))) (W : Valuation τ sig (Elt F)) :
    after (l₁ ++ l₂) W = after l₂ (after l₁ W) := by
  induction l₁ generalizing W with
  | nil => rfl
  | cons op l ih => exact ih _

/-- The four stretches in order are the mask-and-arg-max half followed by the one-hot-and-product half. -/
theorem stretches_split :
    (List.flatten [hostOps0, hostOps0_1, hostOps0_2, hostOps0_3] : List (HloOp τ sig (Elt F)))
      = (hostOps0 ++ hostOps0_1) ++ (hostOps0_2 ++ hostOps0_3) := rfl

-- every equation below compares the reductions' operands, never their bodies
attribute [local irreducible] Host.reduce Host.reduce2

set_option maxRecDepth 8192 in
/-- After the first two stretches the presence buffer holds the "or" of the mask along the cells. -/
theorem first_v9 (W : Valuation τ sig (Elt F)) :
    after (hostOps0 ++ hostOps0_1) W (main_v9 : DevRef τ sig) = Cert.FirstMatch.presentOf (W (main_arg1 : DevRef τ sig)) := by
  simp only [hostOps0, hostOps0_1, List.cons_append, List.nil_append]
  after_results_simp
  rfl

set_option maxRecDepth 8192 in
/-- After the first two stretches the arg-max's index result holds the picked cell. -/
theorem first_v11 (W : Valuation τ sig (Elt F)) :
    after (hostOps0 ++ hostOps0_1) W (main_v11 : DevRef τ sig) = Cert.FirstMatch.firstK (W (main_arg1 : DevRef τ sig)) := by
  simp only [hostOps0, hostOps0_1, List.cons_append, List.nil_append]
  after_results_simp
  simp only [TRef.toBuf, TRef.ofBuf, cast_eq]
  rfl

set_option maxRecDepth 8192 in
/-- The first two stretches do not write the float argument. -/
theorem first_arg0 (W : Valuation τ sig (Elt F)) :
    after (hostOps0 ++ hostOps0_1) W (main_arg0 : DevRef τ sig) = W (main_arg0 : DevRef τ sig) := by
  simp only [hostOps0, hostOps0_1, List.cons_append, List.nil_append]
  after_results_simp

set_option maxRecDepth 8192 in
/-- After the last two stretches the selector buffer holds the one-hot rows of the picked cells times the presence
    indicator. -/
theorem second_v16 (W : Valuation τ sig (Elt F)) :
    after (hostOps0_2 ++ hostOps0_3) W (main_v16 : DevRef τ sig)
      = mulf
          (uitofp .f32 (cmpi .eq
            (broadcastInDim S1024x32x64 ![0, 1, 2] bcast_S1024x32x1_S1024x32x64_0_1_2
              (broadcastInDim S1024x32x1 ![0, 1] bcast_S1024x32_S1024x32x1_0_1 (W (main_v11 : DevRef τ sig))))
            (broadcastInDim S1024x32x64 ![0, 1, 2] bcast_S1x1x64_S1024x32x64_0_1_2 (iotaInDim S1x1x64 32 2))))
          (broadcastInDim S1024x32x64 ![0, 1, 2] bcast_S1024x32x1_S1024x32x64_0_1_2
            (uitofp .f32 (broadcastInDim S1024x32x1 ![0, 1] bcast_S1024x32_S1024x32x1_0_1 (W (main_v9 : DevRef τ sig))))) := by
  simp only [hostOps0_2, hostOps0_3, List.cons_append, List.nil_append]
  after_results_simp
  simp only [TRef.toBuf, TRef.ofBuf, cast_eq]

set_option maxRecDepth 8192 in
/-- After the last two stretches the merged-board buffer holds the float argument with its two board axes merged. -/
theorem second_v17 (W : Valuation τ sig (Elt F)) :
    after (hostOps0_2 ++ hostOps0_3) W (main_v17 : DevRef τ sig) = Cert.FirstMatch.cellsOf (W (main_arg0 : DevRef τ sig)) := by
  simp only [hostOps0_2, hostOps0_3, List.cons_append, List.nil_append]
  after_results_simp
  rfl

variable (m : (ℓ : Loc nD τ sig) → Buf (Elt F) ℓ)

/-- The selector array at region entry is the one-hot-times-present selector of the launch's piece ids. -/
theorem V_sel (c : Dev nD) :
    (V m c main_v16 : FVec F S1024x32x64 .f32) = Cert.FirstMatch.selOf (m ((c : Thread nD τ).loc main_arg1)) := by
  show after (List.flatten [hostOps0, hostOps0_1, hostOps0_2, hostOps0_3]) (fun b => m (c, b)) (main_v16 : DevRef τ sig) = _
  rw [stretches_split, after_append, second_v16, first_v11, first_v9]
  rfl

/-- The board-vector array at region entry is the launch's board vectors with the two board axes merged. -/
theorem V_cells (c : Dev nD) :
    (V m c main_v17 : FVec F S1024x512x64 .f32) = Cert.FirstMatch.cellsOf (m ((c : Thread nD τ).loc main_arg0)) := by
  show after (List.flatten [hostOps0, hostOps0_1, hostOps0_2, hostOps0_3]) (fun b => m (c, b)) (main_v17 : DevRef τ sig) = _
  rw [stretches_split, after_append, second_v17, first_arg0]

end Cert.KernelIdeal.HostValue

end
-- ==== Proof.LibArgmaxReduce.lean ====
/-
  The arg-max fold facts of LibArgmaxFold stated for the host reductions themselves, at any shapes: a two-operand
  reduce by the arg-max body and a one-operand reduce by "or" are left folds over the same positions in the same
  order, so what holds of the folds over any list holds of them. Over a 0/1 mask `x` and an index operand `y`:
  * where the "or" of the mask is 1, the widened signed arg-max and the 1-bit unsigned arg-max give the same index;
  * the 1-bit arg-max's index obeys any positive bound every entry of `y` obeys.
-/
import Idealize.ShloMosaic.PureOps
import proofs.«154374_j19061064860376_1_alg».proof.Proof.LibArgmaxFold

namespace ArgmaxFold

open Idealize.ShloMosaic

variable {s t u : Shape} {axes : List (Fin s.rank)}

/-- Where the "or" of the mask along the reduced axes is 1, the two arg-max reductions (32-bit 0/1 values from the
    least signed value; the 1-bit mask from 0) give the same index. -/
theorem reduce2_index_eq (x : IVec s 1) (y : IVec s 32) (v32 i32 : u.Idx → BitVec 32) (v1 : u.Idx → BitVec 1)
    (h : s.ReducesTo axes t) (hu : 0 < u.numel) (hw : 1 < 32)
    (hv32 : v32 (Shape.Idx.first hu) = 2147483648#32) (hi32 : i32 (Shape.Idx.first hu) = 0#32)
    (hv1 : v1 (Shape.Idx.first hu) = 0#1) (j : t.Idx)
    (hp : Host.reduce IntOp.ori x v1 h hu j = 1#1) :
    (Host.reduce2 stepS32 (extui 32 x hw) y v32 i32 h hu j).2 = (Host.reduce2 stepU1 x y v1 i32 h hu j).2 := by
  unfold Host.reduce at hp
  unfold Host.reduce2
  rw [hv1] at hp
  rw [hv32, hi32, hv1]
  exact index_eq _ (fun n => x (s.rowMajor.symm n)) (fun n => y (s.rowMajor.symm n))
    (exists_of_foldl_ori _ (fun n => x (s.rowMajor.symm n)) hp)

/-- The 1-bit arg-max's index obeys any positive bound every entry of the index operand obeys. -/
theorem reduce2_index_lt (x : IVec s 1) (y : IVec s 32) (v1 : u.Idx → BitVec 1) (i32 : u.Idx → BitVec 32)
    (h : s.ReducesTo axes t) (hu : 0 < u.numel)
    (hv1 : v1 (Shape.Idx.first hu) = 0#1) (hi32 : i32 (Shape.Idx.first hu) = 0#32)
    (K : Nat) (hK : 0 < K) (hy : ∀ i, (y i).toNat < K) (j : t.Idx) :
    ((Host.reduce2 stepU1 x y v1 i32 h hu j).2).toNat < K := by
  unfold Host.reduce2
  rw [hv1, hi32]
  exact index_lt _ (fun n => x (s.rowMajor.symm n)) (fun n => y (s.rowMajor.symm n)) K hK (fun n _ => hy _)

end ArgmaxFold
-- ==== Proof.Bridge.lean ====
/-
  The kernel's contraction collapses to one entry. Row (b, p) of the selector is the one-hot vector of the picked
  cell when piece p + 1 occurs on board b and the zero vector when it does not, so the sum over the 64 cells of
  selector times any row g is g at the picked cell, or zero. Three facts about the picked cell carry this: when the
  piece occurs the mask has a one among the cells of (b, p); then the two spellings of the arg-max pick the same
  cell; and the cell picked is always one of the 64.
-/
import proofs.«154374_j19061064860376_1_alg».proof.Proof.Terms
import proofs.«154374_j19061064860376_1_alg».proof.Proof.LibArgmaxFold
import proofs.«154374_j19061064860376_1_alg».proof.Proof.LibArgmaxReduce
import Idealize.ShloMosaic.Lib.ValueIdx
import Idealize.ShloMosaic.Lib.Pipeline.Value
import Idealize.ShloMosaic.PureOps.Ideal.Laws

noncomputable section

namespace Cert.FirstMatch

open Cert.KernelIdeal Cert.KernelIdeal.Gen Idealize.ShloMosaic Idealize.ShloMosaic.ValueIdx

variable (ids : IVec S1024x8x8 32)

/-- A cell's own number, as a 32-bit word, is below 64. -/
theorem iota_lt (i : S1024x32x64.Idx) : (iotaInDim S1024x32x64 32 2 i).toNat < 64 := by
  have h : (i 2).val < 64 := (i 2).isLt
  show (BitVec.ofNat 32 (i 2).val).toNat < 64
  rw [BitVec.toNat_ofNat]
  omega

-- the reductions are cited as they stand, never opened: they are folds over two million positions
attribute [local irreducible] Host.reduce Host.reduce2

/-- The presence array is the "or"-reduction of the mask along the cells. -/
theorem presentOf_fn : presentOf ids
    = Host.reduce IntOp.ori (maskOf ids) (constantI S_ 1 0#1) reducesTo_S1024x32x64_S1024x32_d2 h_S_ := rfl

/-- The kernel's picked cell is the index result of the arg-max reduction over the widened mask. -/
theorem firstK_fn : firstK ids = fun j =>
    (Host.reduce2 ArgmaxFold.stepS32 (extui 32 (maskOf ids) natLt_1_32) (iotaInDim S1024x32x64 32 2)
      (constantI S_ 32 2147483648#32) (constantI S_ 32 0#32) reducesTo_S1024x32x64_S1024x32_d2 h_S_ j).2 := rfl

/-- The reference's picked cell is the index result of the arg-max reduction over the 1-bit mask. -/
theorem firstR_fn : firstR ids = fun j =>
    (Host.reduce2 ArgmaxFold.stepU1 (maskOf ids) (iotaInDim S1024x32x64 32 2)
      (constantI S_ 1 0#1) (constantI S_ 32 0#32) reducesTo_S1024x32x64_S1024x32_d2 h_S_ j).2 := rfl

/-- Where the "or" of the mask along the cells is 1, the two arg-max reductions give the same index. -/
theorem index_eq_of_or (j : S1024x32.Idx)
    (h : Host.reduce IntOp.ori (maskOf ids) (constantI S_ 1 0#1) reducesTo_S1024x32x64_S1024x32_d2 h_S_ j = 1#1) :
    (Host.reduce2 ArgmaxFold.stepS32 (extui 32 (maskOf ids) natLt_1_32) (iotaInDim S1024x32x64 32 2)
      (constantI S_ 32 2147483648#32) (constantI S_ 32 0#32) reducesTo_S1024x32x64_S1024x32_d2 h_S_ j).2
    = (Host.reduce2 ArgmaxFold.stepU1 (maskOf ids) (iotaInDim S1024x32x64 32 2)
      (constantI S_ 1 0#1) (constantI S_ 32 0#32) reducesTo_S1024x32x64_S1024x32_d2 h_S_ j).2 :=
  ArgmaxFold.reduce2_index_eq (maskOf ids) (iotaInDim S1024x32x64 32 2) (constantI S_ 32 2147483648#32)
    (constantI S_ 32 0#32) (constantI S_ 1 0#1) reducesTo_S1024x32x64_S1024x32_d2 h_S_ natLt_1_32 rfl rfl rfl j h

/-- The 1-bit arg-max's index is the initial 0 or some cell's own number, so it is below 64. -/
theorem index_lt_cells (j : S1024x32.Idx) :
    ((Host.reduce2 ArgmaxFold.stepU1 (maskOf ids) (iotaInDim S1024x32x64 32 2)
      (constantI S_ 1 0#1) (constantI S_ 32 0#32) reducesTo_S1024x32x64_S1024x32_d2 h_S_ j).2).toNat < 64 :=
  ArgmaxFold.reduce2_index_lt (maskOf ids) (iotaInDim S1024x32x64 32 2) (constantI S_ 1 0#1) (constantI S_ 32 0#32)
    reducesTo_S1024x32x64_S1024x32_d2 h_S_ rfl rfl 64 (by decide) iota_lt j

/-- Where the piece occurs the mask has a one among the row's cells, so the two spellings of the arg-max — both left
    folds over the same cells in the same order — pick the same cell. -/
theorem firstK_eq_firstR (j : S1024x32.Idx) (h : presentOf ids j = 1#1) : firstK ids j = firstR ids j := by
  rw [presentOf_fn] at h
  rw [firstK_fn, firstR_fn]
  exact index_eq_of_or ids j h

/-- The picked cell is one of the 64 cells. -/
theorem firstR_lt (j : S1024x32.Idx) : (firstR ids j).toNat < 64 := by
  rw [firstR_fn]
  exact index_lt_cells ids j

/-- The selector at (b, p, s): the indicator that s is the picked cell, times the indicator that the piece occurs. -/
theorem selOf_apply (b : Fin 1024) (p : Fin 32) (s : Fin 64) :
    selOf (F := Ideal) ids (ix3 b p s)
      = (FloatOps.uitofp (F := Ideal) .f32 (IntOp.cmpi .eq (firstK ids (ix2 b p)) (BitVec.ofNat 32 s.val)) : EReal)
        * (FloatOps.uitofp (F := Ideal) .f32 (presentOf ids (ix2 b p)) : EReal) := by
  unfold selOf
  rw [mulf_apply]
  have e1 : broadcastInDim S1024x32x64 ![0, 1, 2] bcast_S1024x32x1_S1024x32x64_0_1_2
      (broadcastInDim S1024x32x1 ![0, 1] bcast_S1024x32_S1024x32x1_0_1 (firstK ids)) (ix3 b p s) = firstK ids (ix2 b p) := by
    rw [broadcastInDim_apply _ _ _ (ix3 b p s) (ix3 b p (0 : Fin 1))
        (fun a => by match a with | ⟨0, _⟩ => rfl | ⟨1, _⟩ => rfl | ⟨2, _⟩ => rfl),
      broadcastInDim_apply _ _ _ (ix3 b p (0 : Fin 1)) (ix2 b p)
        (fun a => by match a with | ⟨0, _⟩ => rfl | ⟨1, _⟩ => rfl)]
  have e2 : broadcastInDim S1024x32x64 ![0, 1, 2] bcast_S1x1x64_S1024x32x64_0_1_2 (iotaInDim S1x1x64 32 2) (ix3 b p s)
      = BitVec.ofNat 32 s.val := by
    rw [broadcastInDim_apply _ _ _ (ix3 b p s) (ix3 (0 : Fin 1) (0 : Fin 1) s)
        (fun a => by match a with | ⟨0, _⟩ => rfl | ⟨1, _⟩ => rfl | ⟨2, _⟩ => rfl)]
    rfl
  have e3 : broadcastInDim S1024x32x64 ![0, 1, 2] bcast_S1024x32x1_S1024x32x64_0_1_2
      (uitofp (F := Ideal) .f32 (broadcastInDim S1024x32x1 ![0, 1] bcast_S1024x32_S1024x32x1_0_1 (presentOf ids))) (ix3 b p s)
      = (FloatOps.uitofp (F := Ideal) .f32 (presentOf ids (ix2 b p)) : EReal) := by
    rw [broadcastInDim_apply _ _ _ (ix3 b p s) (ix3 b p (0 : Fin 1))
        (fun a => by match a with | ⟨0, _⟩ => rfl | ⟨1, _⟩ => rfl | ⟨2, _⟩ => rfl)]
    show (FloatOps.uitofp (F := Ideal) .f32 (broadcastInDim S1024x32x1 ![0, 1] bcast_S1024x32_S1024x32x1_0_1 (presentOf ids) (ix3 b p (0 : Fin 1))) : EReal) = _
    rw [broadcastInDim_apply _ _ _ (ix3 b p (0 : Fin 1)) (ix2 b p)
        (fun a => by match a with | ⟨0, _⟩ => rfl | ⟨1, _⟩ => rfl)]
  rw [e3]
  show (FloatOps.uitofp (F := Ideal) .f32 (IntOp.cmpi .eq
      (broadcastInDim S1024x32x64 ![0, 1, 2] bcast_S1024x32x1_S1024x32x64_0_1_2
        (broadcastInDim S1024x32x1 ![0, 1] bcast_S1024x32_S1024x32x1_0_1 (firstK ids)) (ix3 b p s))
      (broadcastInDim S1024x32x64 ![0, 1, 2] bcast_S1x1x64_S1024x32x64_0_1_2 (iotaInDim S1x1x64 32 2) (ix3 b p s))) : EReal) * _ = _
  rw [e1, e2]

/-- The indicator of a one-bit word as an extended real. -/
theorem uitofp_zero : (FloatOps.uitofp (F := Ideal) .f32 (0#1 : BitVec 1) : EReal) = 0 := by
  show (((0#1 : BitVec 1).toNat : ℝ) : EReal) = 0
  simp

theorem uitofp_one : (FloatOps.uitofp (F := Ideal) .f32 (1#1 : BitVec 1) : EReal) = 1 := by
  show (((1#1 : BitVec 1).toNat : ℝ) : EReal) = 1
  simp

/-- For a word f below 64, "f equals the word of s" is "f's number is s". -/
theorem cmpi_eq_ofNat (f : BitVec 32) (s : Fin 64) :
    IntOp.cmpi .eq f (BitVec.ofNat 32 s.val) = if f.toNat = s.val then 1#1 else 0#1 := by
  have hs : s.val < 2 ^ 32 := lt_trans s.isLt (by decide)
  unfold IntOp.cmpi
  by_cases h : f.toNat = s.val
  · have e : f = BitVec.ofNat 32 s.val := BitVec.eq_of_toNat_eq (by rw [BitVec.toNat_ofNat, Nat.mod_eq_of_lt hs]; exact h)
    rw [if_pos h, e, beq_self_eq_true]
    rfl
  · have e : f ≠ BitVec.ofNat 32 s.val := fun e => h (by rw [e, BitVec.toNat_ofNat, Nat.mod_eq_of_lt hs])
    rw [if_neg h, beq_eq_false_iff_ne.mpr e]
    rfl

/-- The contraction of selector row (b, p) with any row g over the 64 cells: g at the picked cell where the piece
    occurs, zero where it does not. -/
theorem sum_selOf (b : Fin 1024) (p : Fin 32) (g : Fin 64 → EReal) :
    ∑ s : Fin 64, selOf (F := Ideal) ids (ix3 b p s) * g s
      = if presentOf ids (ix2 b p) = 1#1 then g ⟨(firstR ids (ix2 b p)).toNat, firstR_lt ids (ix2 b p)⟩ else 0 := by
  by_cases h : presentOf ids (ix2 b p) = 1#1
  · rw [if_pos h]
    have hf := firstK_eq_firstR ids (ix2 b p) h
    rw [Finset.sum_eq_single (⟨(firstR ids (ix2 b p)).toNat, firstR_lt ids (ix2 b p)⟩ : Fin 64)]
    · rw [selOf_apply, h, uitofp_one, hf, cmpi_eq_ofNat, if_pos rfl, uitofp_one, one_mul, one_mul]
    · intro s _ hs
      rw [selOf_apply, hf, cmpi_eq_ofNat, if_neg (fun e => hs (Fin.ext e.symm)), uitofp_zero, zero_mul, zero_mul]
    · intro hn; exact absurd (Finset.mem_univ _) hn
  · rw [if_neg h]
    have h0 := eq_zero_of_ne_one h
    refine Finset.sum_eq_zero fun s _ => ?_
    rw [selOf_apply, h0, uitofp_zero, mul_zero, zero_mul]

end Cert.FirstMatch

end
-- ==== Proof.RefTerms.lean ====
/-
  What the reference computes, as one function of its two argument arrays. Its pieces: the picked cell guarded as
  jnp's take_along_axis guards an index (a negative index wraps by the axis length 64; an index outside [0, 63] after
  that yields the fill value), the gather of the picked cell's 512 channels from the board vectors laid out
  cells-major, and the final choice between that row and zero by whether the piece occurs.
-/
import proofs.«154374_j19061064860376_1_alg».proof.Proof.Gen.ReferenceIdeal
import proofs.«154374_j19061064860376_1_alg».proof.Proof.Terms

noncomputable section

namespace Cert.ReferenceIdeal.RefTerms

open Cert.ReferenceIdeal Cert.ReferenceIdeal.Gen Idealize.ShloMosaic

variable {F : FTy → Type} [FloatOps F]

/-- An index column as take_along_axis normalizes it: a negative entry has the axis length 64 added. -/
def wrapIdx (I : IVec S1024x32x1 32) : IVec S1024x32x1 32 :=
  select (cmpi .slt I (broadcastInDim S1024x32x1 ![] bcast_S_S1024x32x1 (constantI S_ 32 0#32)))
    (addi I (broadcastInDim S1024x32x1 ![] bcast_S_S1024x32x1 (constantI S_ 32 64#32))) I

/-- Whether every normalized index of row (b, p) lies in [0, 63]. -/
def inRange (I : IVec S1024x32x1 32) : IVec S1024x32 1 :=
  Host.reduce IntOp.andi
    (andi (cmpi .sge (wrapIdx I) (broadcastInDim S1024x32x1 ![] bcast_S_S1024x32x1 (constantI S_ 32 0#32)))
      (cmpi .sle (wrapIdx I) (broadcastInDim S1024x32x1 ![0, 1, 2] bcast_S1x1x1_S1024x32x1_0_1_2
        (broadcastInDim S1x1x1 ![2] bcast_S1_S1x1x1_2 (constantI S1 32 63#32)))))
    (constantI S_ 1 1#1) reducesTo_S1024x32x1_S1024x32_d2 h_S_

/-- take_along_axis along the cell axis: row (b, p) of the result is row `I (b, p, 0)` of board `b`'s cells-major table,
    or the fill value where the index is out of range. -/
def takeAlong (X : FVec F S1024x64x512 .f32) (I : IVec S1024x32x1 32) : FVec F S1024x32x512 .f32 :=
  select (broadcastInDim S1024x32x512 ![0, 1] bcast_S1024x32_S1024x32x512_0_1 (inRange I))
    (Host.gather gather_S1024x64x512_S1024x32x1_S1024x32x512_2_1_0_0_1_2_11512 X (wrapIdx I))
    (broadcastInDim S1024x32x512 ![] bcast_S_S1024x32x512 (constant S_ .f32 0x7FC00000#32))

/-- The reference's result: where piece `p + 1` occurs on board `b`, the 512 channels at the first cell holding it; zero elsewhere. -/
def refOut (x : FVec F S1024x512x8x8 .f32) (ids : IVec S1024x8x8 32) : FVec F S1024x32x512 .f32 :=
  select
    (broadcastInDim S1024x32x512 ![0, 1, 2] bcast_S1024x32x1_S1024x32x512_0_1_2
      (broadcastInDim S1024x32x1 ![0, 1] bcast_S1024x32_S1024x32x1_0_1 (Cert.FirstMatch.presentOf ids)))
    (takeAlong
      (transpose S1024x64x512 [0, 2, 1] (Cert.FirstMatch.cellsOf x) transposes_S1024x512x64_S1024x64x512_0_2_1)
      (broadcastInDim S1024x32x1 ![0, 1] bcast_S1024x32_S1024x32x1_0_1 (Cert.FirstMatch.firstR ids)))
    (broadcastInDim S1024x32x512 ![] bcast_S_S1024x32x512 (constant S_ .f32 0x00000000#32))

end Cert.ReferenceIdeal.RefTerms

end
-- ==== Proof.RefRead.lean ====
/-
  The reference's result read at one entry (b, p, q). With the picked cell f in [0, 63] the index guard of
  take_along_axis passes, the gather reads row f of board b's cells-major table at channel q — that is entry (b, q, f)
  of the board vectors — and the final select keeps it when the piece occurs and gives zero when it does not.
-/
import proofs.«154374_j19061064860376_1_alg».proof.Proof.RefTerms
import Idealize.ShloMosaic.Lib.ValueIdx
import Idealize.ShloMosaic.Lib.Pipeline.Value
import Idealize.ShloMosaic.PureOps.Reduce
import Idealize.ShloMosaic.PureOps.Ideal.Laws

noncomputable section

namespace Cert.ReferenceIdeal.RefRead

open Cert.ReferenceIdeal Cert.ReferenceIdeal.Gen Idealize.ShloMosaic
open Idealize.ShloMosaic.ValueIdx
open Cert.FirstMatch (maskOf presentOf firstR cellsOf)

section Reads
variable {α : Type}

/-- A rank-2 array broadcast to a trailing unit axis reads, at (b, p, z), the array at (b, p). -/
theorem bcastCol_apply (v : S1024x32.Idx → α) (b : Fin 1024) (p : Fin 32) (z : Fin 1) :
    broadcastInDim S1024x32x1 ![0, 1] bcast_S1024x32_S1024x32x1_0_1 v (ix3 b p z) = v (ix2 b p) :=
  broadcastInDim_apply _ _ v _ _ fun a => match a with | ⟨0, _⟩ => rfl | ⟨1, _⟩ => rfl

/-- A column stretched along its unit axis reads, at (b, p, q), the column at (b, p, 0). -/
theorem bcastStretch_apply (v : S1024x32x1.Idx → α) (b : Fin 1024) (p : Fin 32) (q : Fin 512) :
    broadcastInDim S1024x32x512 ![0, 1, 2] bcast_S1024x32x1_S1024x32x512_0_1_2 v (ix3 b p q) = v (ix3 b p 0) :=
  broadcastInDim_apply _ _ v _ _ fun a => match a with | ⟨0, _⟩ => rfl | ⟨1, _⟩ => rfl | ⟨2, _⟩ => rfl

/-- A rank-2 array broadcast along a new trailing axis reads, at (b, p, q), the array at (b, p). -/
theorem bcastRows_apply (v : S1024x32.Idx → α) (b : Fin 1024) (p : Fin 32) (q : Fin 512) :
    broadcastInDim S1024x32x512 ![0, 1] bcast_S1024x32_S1024x32x512_0_1 v (ix3 b p q) = v (ix2 b p) :=
  broadcastInDim_apply _ _ v _ _ fun a => match a with | ⟨0, _⟩ => rfl | ⟨1, _⟩ => rfl

end Reads

section Signed

/-- A 32-bit word below 64 read signed is itself. -/
theorem toInt_of_lt {f : BitVec 32} (hf : f.toNat < 64) : f.toInt = (f.toNat : Int) :=
  BitVec.toInt_eq_toNat_of_lt (by omega)

/-- Such a word is not negative: the signed "less than zero" bit is 0. -/
theorem cmpi_slt_zero {f : BitVec 32} (hf : f.toNat < 64) : IntOp.cmpi .slt f 0#32 = 0#1 := by
  have h : f.slt 0#32 = false := by
    rw [BitVec.slt_eq_decide, toInt_of_lt hf]
    exact decide_eq_false (by simp)
  show BitVec.ofBool (f.slt 0#32) = 0#1
  rw [h]; rfl

/-- Zero is at most such a word, signed. -/
theorem cmpi_sge_zero {f : BitVec 32} (hf : f.toNat < 64) : IntOp.cmpi .sge f 0#32 = 1#1 := by
  have h : (0#32).sle f = true := by
    rw [BitVec.sle_eq_decide, toInt_of_lt hf]
    exact decide_eq_true (by simp)
  show BitVec.ofBool ((0#32).sle f) = 1#1
  rw [h]; rfl

/-- Such a word is at most 63, signed. -/
theorem cmpi_sle_63 {f : BitVec 32} (hf : f.toNat < 64) : IntOp.cmpi .sle f 63#32 = 1#1 := by
  have h : f.sle 63#32 = true := by
    rw [BitVec.sle_eq_decide, toInt_of_lt hf]
    have : (63#32).toInt = 63 := by decide
    rw [this]
    exact decide_eq_true (by omega)
  show BitVec.ofBool (f.sle 63#32) = 1#1
  rw [h]; rfl

end Signed

section Guard

/-- The normalized index column at (b, p, z): the entry itself when it is a cell number. -/
theorem wrapIdx_apply (I : IVec S1024x32x1 32) (b : Fin 1024) (p : Fin 32) (z : Fin 1)
    (hI : (I (ix3 b p z)).toNat < 64) : RefTerms.wrapIdx I (ix3 b p z) = I (ix3 b p z) := by
  show Scalar.select (IntOp.cmpi .slt (I (ix3 b p z)) 0#32) (IntOp.addi (I (ix3 b p z)) 64#32) (I (ix3 b p z)) = _
  rw [cmpi_slt_zero hI, select_zero]

/-- A fold over an axis of length one is one application of the operation, to the axis's only entry and the initial value. -/
theorem fold_fin_one {β : Type} (op : β → β → β) [Std.Commutative op] [Std.Associative op] (init : β) {n : Nat} (hn : n = 1)
    (g : Fin n → β) : (Finset.univ : Finset (Fin n)).fold op init g = op (g ⟨0, by omega⟩) init := by
  subst hn
  rw [Finset.univ_unique, Finset.fold_singleton]
  rfl

/-- The source index over (b, p) with any coordinate on the dropped unit axis is (b, p, 0). -/
theorem lift_ix2 (h : S1024x32x1.Reduces [2] S1024x32) (b : Fin 1024) (p : Fin 32) (k : Fin (S1024x32x1.size 2)) :
    h.lift (ix2 b p) k = ix3 b p 0 := by
  funext c
  refine Fin.ext ?_
  show h.liftVal (ix2 b p) k.val c = _
  match c with
  | ⟨0, _⟩ => rfl
  | ⟨1, _⟩ => rfl
  | ⟨2, _⟩ =>
    show k.val = 0
    have : k.val < 1 := k.isLt
    omega

/-- The range guard of row (b, p) passes when the row's one index is a cell number. -/
theorem inRange_apply (I : IVec S1024x32x1 32) (b : Fin 1024) (p : Fin 32)
    (hI : (I (ix3 b p 0)).toNat < 64) : RefTerms.inRange I (ix2 b p) = 1#1 := by
  have hR : S1024x32x1.Reduces [2] S1024x32 := by decide
  unfold RefTerms.inRange
  refine (Host.reduce_eq_fold_single IntOp.andi _ _ reducesTo_S1024x32x1_S1024x32_d2 hR h_S_ (ix2 b p)).trans ?_
  refine (fold_fin_one (n := S1024x32x1.size 2) IntOp.andi _ rfl _).trans ?_
  rw [Function.comp_apply, lift_ix2]
  show IntOp.andi (IntOp.andi (IntOp.cmpi .sge (RefTerms.wrapIdx I (ix3 b p 0)) 0#32)
      (IntOp.cmpi .sle (RefTerms.wrapIdx I (ix3 b p 0)) 63#32)) 1#1 = 1#1
  rw [wrapIdx_apply I b p 0 hI, cmpi_sge_zero hI, cmpi_sle_63 hI]
  rfl

end Guard

section Gather
variable {α : Type}

/-- The gather's dimension numbers, by name. -/
local notation "gd" => gather_S1024x64x512_S1024x32x1_S1024x32x512_2_1_0_0_1_2_11512

/-- THE GATHER READ AT (b, p, q): board b's table at row "start index (b, p, 0), read signed and clamped into [0, 63]",
    channel q. Axis 0 is the batching axis (coordinate b), axis 1 the collapsed start-indexed one, axis 2 the offset axis. -/
theorem gather_apply (X : S1024x64x512.Idx → α) (I : IVec S1024x32x1 32) (b : Fin 1024) (p : Fin 32) (q : Fin 512) :
    Host.gather gd X I (ix3 b p q)
      = X (ix3 b ⟨min (I (ix3 b p 0)).toInt.toNat 63, by omega⟩ q) := by
  unfold Host.gather
  congr 1
  funext a
  refine Fin.ext ?_
  show GatherDims.start gd (ix3 b p q) I a + GatherDims.batchCoord gd (ix3 b p q) a + GatherDims.offCoord gd (ix3 b p q) a = _
  match a with
  | ⟨0, _⟩ =>
    have hs : GatherDims.start gd (ix3 b p q) I (0 : Fin 3) = 0 := by
      unfold GatherDims.start
      rw [dif_neg (by decide)]
    have ho : GatherDims.offCoord gd (ix3 b p q) (0 : Fin 3) = 0 :=
      GatherDims.offCoord_eq_zero _ _ _ (by decide)
    have hb : GatherDims.batchCoord gd (ix3 b p q) (0 : Fin 3) = b.val := by
      unfold GatherDims.batchCoord
      rw [dif_pos (by decide)]
      rfl
    show GatherDims.start gd (ix3 b p q) I (0 : Fin 3) + GatherDims.batchCoord gd (ix3 b p q) (0 : Fin 3) + GatherDims.offCoord gd (ix3 b p q) (0 : Fin 3) = b.val
    rw [hs, ho, hb]
    omega
  | ⟨1, _⟩ =>
    have hbz : GatherDims.batchCoord gd (ix3 b p q) (1 : Fin 3) = 0 :=
      GatherDims.batchCoord_eq_zero _ _ _ (by decide)
    have ho : GatherDims.offCoord gd (ix3 b p q) (1 : Fin 3) = 0 :=
      GatherDims.offCoord_eq_zero _ _ _ (by decide)
    have hs : GatherDims.start gd (ix3 b p q) I (1 : Fin 3) = min (I (ix3 b p 0)).toInt.toNat 63 := by
      unfold GatherDims.start
      rw [dif_pos (by decide)]
      have hsi : GatherDims.siIdx gd (ix3 b p q) ⟨List.idxOf (1 : Fin 3) (GatherDims.startIndexMap gd), List.idxOf_lt_length_iff.2 (by decide)⟩
          = ix3 b p 0 := by
        funext c; refine Fin.ext ?_
        match c with
        | ⟨0, _⟩ => rfl
        | ⟨1, _⟩ => rfl
        | ⟨2, _⟩ => rfl
      rw [hsi]
      rfl
    show GatherDims.start gd (ix3 b p q) I (1 : Fin 3) + GatherDims.batchCoord gd (ix3 b p q) (1 : Fin 3) + GatherDims.offCoord gd (ix3 b p q) (1 : Fin 3) = min (I (ix3 b p 0)).toInt.toNat 63
    rw [hs, hbz, ho]
    omega
  | ⟨2, _⟩ =>
    have hs : GatherDims.start gd (ix3 b p q) I (2 : Fin 3) = 0 := by
      unfold GatherDims.start
      rw [dif_neg (by decide)]
    have hbz : GatherDims.batchCoord gd (ix3 b p q) (2 : Fin 3) = 0 :=
      GatherDims.batchCoord_eq_zero _ _ _ (by decide)
    have ho : GatherDims.offCoord gd (ix3 b p q) (2 : Fin 3) = q.val := by
      unfold GatherDims.offCoord
      rw [dif_pos (by decide)]
      rfl
    show GatherDims.start gd (ix3 b p q) I (2 : Fin 3) + GatherDims.batchCoord gd (ix3 b p q) (2 : Fin 3) + GatherDims.offCoord gd (ix3 b p q) (2 : Fin 3) = q.val
    rw [hs, hbz, ho]
    omega

end Gather

section Take
variable {F : FTy → Type} [FloatOps F] {α : Type}

/-- take_along_axis read at (b, p, q) when the row's index is a cell number: board b's table at that row, channel q. -/
theorem takeAlong_apply (X : FVec F S1024x64x512 .f32) (I : IVec S1024x32x1 32) (b : Fin 1024) (p : Fin 32) (q : Fin 512)
    (hI : (I (ix3 b p 0)).toNat < 64) :
    RefTerms.takeAlong X I (ix3 b p q) = X (ix3 b ⟨(I (ix3 b p 0)).toNat, hI⟩ q) := by
  unfold RefTerms.takeAlong
  rw [select_apply, bcastRows_apply, inRange_apply I b p hI, select_one, gather_apply]
  refine congrArg X (funext fun c => Fin.ext ?_)
  match c with
  | ⟨0, _⟩ => rfl
  | ⟨1, _⟩ =>
    show min (RefTerms.wrapIdx I (ix3 b p 0)).toInt.toNat 63 = (I (ix3 b p 0)).toNat
    rw [wrapIdx_apply I b p 0 hI, toInt_of_lt hI]
    omega
  | ⟨2, _⟩ => rfl

/-- The same with the index column given as a rank-2 array of cell numbers laid along the unit axis. -/
theorem takeAlong_col_apply (X : FVec F S1024x64x512 .f32) (v : IVec S1024x32 32) (b : Fin 1024) (p : Fin 32) (q : Fin 512)
    (hv : (v (ix2 b p)).toNat < 64) :
    RefTerms.takeAlong X (broadcastInDim S1024x32x1 ![0, 1] bcast_S1024x32_S1024x32x1_0_1 v) (ix3 b p q)
      = X (ix3 b ⟨(v (ix2 b p)).toNat, hv⟩ q) := by
  have hI : ((broadcastInDim S1024x32x1 ![0, 1] bcast_S1024x32_S1024x32x1_0_1 v) (ix3 b p 0)).toNat < 64 := by
    rw [bcastCol_apply]; exact hv
  rw [takeAlong_apply X _ b p q hI]
  exact congrArg (fun r => X (ix3 b r q)) (Fin.ext (congrArg BitVec.toNat (bcastCol_apply v b p 0)))

/-- The cells-major table read at (b, r, q) is the board vectors at (b, q, r). -/
theorem transposeCells_apply (Y : S1024x512x64.Idx → α) (b : Fin 1024) (r : Fin 64) (q : Fin 512) :
    transpose S1024x64x512 [0, 2, 1] Y transposes_S1024x512x64_S1024x64x512_0_2_1 (ix3 b r q) = Y (ix3 b q r) :=
  transpose_apply _ Y _ _ _ fun c => match c with | ⟨0, _⟩ => rfl | ⟨1, _⟩ => rfl | ⟨2, _⟩ => rfl

end Take

/-- Entry (b, p, q) of the reference's result, given that the picked cell is a cell of the board. -/
theorem refOut_apply (x : FVec Ideal S1024x512x8x8 .f32) (ids : IVec S1024x8x8 32) (b : Fin 1024) (p : Fin 32) (q : Fin 512)
    (hf : (firstR ids (ix2 b p)).toNat < 64) :
    RefTerms.refOut (F := Ideal) x ids (ix3 b p q)
      = if presentOf ids (ix2 b p) = 1#1 then cellsOf x (ix3 b q ⟨(firstR ids (ix2 b p)).toNat, hf⟩) else 0 := by
  unfold RefTerms.refOut
  rw [select_apply, bcastStretch_apply, bcastCol_apply]
  by_cases hp : presentOf ids (ix2 b p) = 1#1
  · -- the piece occurs: the select keeps the take, whose row is the picked cell's
    rw [if_pos hp, hp, select_one, takeAlong_col_apply _ _ b p q hf, transposeCells_apply]
  · -- the piece does not occur: the select gives the zero constant
    rw [if_neg hp, eq_zero_of_ne_one hp, select_zero]
    show Ideal.ofBits .f32 0x00000000#32 = 0
    exact Ideal.ofBits_zero_f32

end Cert.ReferenceIdeal.RefRead

end
-- ==== Proof.Equal.lean ====
/-
  The two programs' results are one function of the argument arrays. Entry (b, p, q) of the kernel's output is the
  contraction of selector row (b, p) with board-vector row (b, q) over the 64 cells; the selector row is one-hot at
  the picked cell where piece p + 1 occurs on board b and zero where it does not, so the contraction is the board
  vector at the picked cell, or zero; and that is the reference's entry: its guarded gather reads the same cell (the
  two arg-max spellings agree where the piece occurs, and the picked cell is always one of the 64), and its final
  select gives zero where the piece does not occur.
-/
import proofs.«154374_j19061064860376_1_alg».proof.Proof.KernelArray
import proofs.«154374_j19061064860376_1_alg».proof.Proof.KernelHost
import proofs.«154374_j19061064860376_1_alg».proof.Proof.Bridge
import proofs.«154374_j19061064860376_1_alg».proof.Proof.RefRead

noncomputable section

namespace Cert.KernelIdeal.Equal

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The selector array at region entry, as the selector of the launch's piece ids. -/
theorem selArr_eq (c : Dev nD) :
    ArrayValue.selArr m c = Cert.FirstMatch.selOf (F := Ideal) (m ((c : Thread nD τ).loc main_arg1)) :=
  HostValue.V_sel (F := Ideal) m c

/-- The board-vector array at region entry, as the launch's board vectors with the board axes merged. -/
theorem cellArr_eq (c : Dev nD) :
    ArrayValue.cellArr m c = Cert.FirstMatch.cellsOf (F := Ideal) (m ((c : Thread nD τ).loc main_arg0)) :=
  HostValue.V_cells (F := Ideal) m c

/-- The kernel's output array after the run is the reference's result of the launch's two argument arrays. -/
theorem outArr_eq_refOut (c : Dev nD) :
    ArrayValue.outArr m c
      = Cert.ReferenceIdeal.RefTerms.refOut (F := Ideal) (m ((c : Thread nD τ).loc main_arg0)) (m ((c : Thread nD τ).loc main_arg1)) := by
  funext i
  obtain ⟨b, p, q, rfl⟩ : ∃ (b : Fin 1024) (p : Fin 32) (q : Fin 512), i = ix3 b p q := ⟨i 0, i 1, i 2, eq_ix3 i⟩
  rw [ArrayValue.outArr_apply]
  rw [selArr_eq, cellArr_eq]
  rw [Cert.FirstMatch.sum_selOf (m ((c : Thread nD τ).loc main_arg1)) b p
    (fun s => Cert.FirstMatch.cellsOf (F := Ideal) (m ((c : Thread nD τ).loc main_arg0)) (ix3 b q s))]
  exact (Cert.ReferenceIdeal.RefRead.refOut_apply _ _ b p q (Cert.FirstMatch.firstR_lt _ _)).symm

end Cert.KernelIdeal.Equal

end
-- ==== Proof.RefRun.lean ====
/-
  The reference program run: its @main, with the functions it calls listed at their call sites, is a straight line of
  host operations, so every execution ends with the result buffer at those operations' composed term of the two
  argument arrays — the function `RefTerms.refOut` — and the arguments unchanged.
-/
import proofs.«154374_j19061064860376_1_alg».proof.Proof.Gen.ReferenceIdeal
import proofs.«154374_j19061064860376_1_alg».proof.Proof.RefTerms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's forty-seven operations in order, each call replaced by its callee's operations over that call's buffers:
    twelve of @main's own up to the "or" of the mask; the arg-max's five (the cell numbering, the two initial values,
    one line per result of the two-operand reduce); the merge of the board axes, the transposition to cells-major and
    the picked cell as a column; take_along_axis's twenty-two (the wrap of a negative index, the range test and its
    "and" along the column, the gather, the fill value and the choice); the presence column and the zero; the final
    choice's three. -/
abbrev ops : List (HloOp τ sig (Elt F)) :=
  [ reshape main_arg1 main_v0 rfl shapeCasts_S1024x8x8_S1024x64,
    nullary main_v1 (iotaInDim S32 32 0),
    nullary main_c (constantI S_ 32 1#32),
    unary main_c main_v2 (broadcastInDim S32 ![] bcast_S_S32 : (⟨S_, .i32⟩ : BufTy).Contents (Elt F) → (⟨S32, .i32⟩ : BufTy).Contents (Elt F)),
    binary main_v2 main_v1 main_v3 (addi : (⟨S32, .i32⟩ : BufTy).Contents (Elt F) → (⟨S32, .i32⟩ : BufTy).Contents (Elt F) → (⟨S32, .i32⟩ : BufTy).Contents (Elt F)),
    unary main_v0 main_v4 (broadcastInDim S1024x1x64 ![0, 2] bcast_S1024x64_S1024x1x64_0_2 : (⟨S1024x64, .i32⟩ : BufTy).Contents (Elt F) → (⟨S1024x1x64, .i32⟩ : BufTy).Contents (Elt F)),
    unary main_v3 main_v5 (broadcastInDim S1x32x1 ![1] bcast_S32_S1x32x1_1 : (⟨S32, .i32⟩ : BufTy).Contents (Elt F) → (⟨S1x32x1, .i32⟩ : BufTy).Contents (Elt F)),
    unary main_v4 main_v6 (broadcastInDim S1024x32x64 ![0, 1, 2] bcast_S1024x1x64_S1024x32x64_0_1_2 : (⟨S1024x1x64, .i32⟩ : BufTy).Contents (Elt F) → (⟨S1024x32x64, .i32⟩ : BufTy).Contents (Elt F)),
    unary main_v5 main_v7 (broadcastInDim S1024x32x64 ![0, 1, 2] bcast_S1x32x1_S1024x32x64_0_1_2 : (⟨S1x32x1, .i32⟩ : BufTy).Contents (Elt F) → (⟨S1024x32x64, .i32⟩ : BufTy).Contents (Elt F)),
    binary main_v6 main_v7 main_v8 (cmpi .eq : (⟨S1024x32x64, .i32⟩ : BufTy).Contents (Elt F) → (⟨S1024x32x64, .i32⟩ : BufTy).Contents (Elt F) → (⟨S1024x32x64, .i1⟩ : BufTy).Contents (Elt F)),
    nullary main_c_0 (constantI S_ 1 0#1),
    binary main_v8 main_c_0 main_v9 ((fun x v => Host.reduce IntOp.ori x v reducesTo_S1024x32x64_S1024x32_d2 h_S_) : (⟨S1024x32x64, .i1⟩ : BufTy).Contents (Elt F) → (⟨S_, .i1⟩ : BufTy).Contents (Elt F) → (⟨S1024x32, .i1⟩ : BufTy).Contents (Elt F)),
    TRef.nullary main_call0.v0 (iotaInDim S1024x32x64 32 2),
    TRef.nullary main_call0.c (constantI S_ 1 0#1),
    TRef.nullary main_call0.c_0 (constantI S_ 32 0#32),
    TRef.quaternary (.of main_v8 : TRef sig ⟨S1024x32x64, .i1⟩) main_call0.v0 main_call0.c main_call0.c_0 main_call0.v1_0
      (fun x y u v j => (Host.reduce2 reducer_argmax_i1_i32 x y u v reducesTo_S1024x32x64_S1024x32_d2 h_S_ j).1),
    TRef.quaternary (.of main_v8 : TRef sig ⟨S1024x32x64, .i1⟩) main_call0.v0 main_call0.c main_call0.c_0 main_call0.v1_1
      (fun x y u v j => (Host.reduce2 reducer_argmax_i1_i32 x y u v reducesTo_S1024x32x64_S1024x32_d2 h_S_ j).2),
    reshape main_arg0 main_v11 rfl shapeCasts_S1024x512x8x8_S1024x512x64,
    unary main_v11 main_v12 ((transpose S1024x64x512 [0, 2, 1] · transposes_S1024x512x64_S1024x64x512_0_2_1) : (⟨S1024x512x64, .f32⟩ : BufTy).Contents (Elt F) → (⟨S1024x64x512, .f32⟩ : BufTy).Contents (Elt F)),
    unary main_v10 main_v13 (broadcastInDim S1024x32x1 ![0, 1] bcast_S1024x32_S1024x32x1_0_1 : (⟨S1024x32, .i32⟩ : BufTy).Contents (Elt F) → (⟨S1024x32x1, .i32⟩ : BufTy).Contents (Elt F)),
    TRef.nullary main_call1.c (constantI S_ 32 0#32),
    TRef.unary main_call1.c main_call1.v0 (broadcastInDim S1024x32x1 ![] bcast_S_S1024x32x1),
    TRef.binary (.of main_v13 : TRef sig ⟨S1024x32x1, .i32⟩) main_call1.v0 main_call1.v1 (cmpi .slt),
    TRef.nullary main_call1.c_0 (constantI S_ 32 64#32),
    TRef.unary main_call1.c_0 main_call1.v2 (broadcastInDim S1024x32x1 ![] bcast_S_S1024x32x1),
    TRef.binary (.of main_v13 : TRef sig ⟨S1024x32x1, .i32⟩) main_call1.v2 main_call1.v3 addi,
    TRef.ternary main_call1.v1 main_call1.v3 (.of main_v13 : TRef sig ⟨S1024x32x1, .i32⟩) main_call1.v4 select,
    TRef.nullary main_call1.c_1 (constantI S1 32 63#32),
    TRef.nullary main_call1.c_2 (constantI S_ 32 0#32),
    TRef.unary main_call1.c_2 main_call1.v5 (broadcastInDim S1024x32x1 ![] bcast_S_S1024x32x1),
    TRef.binary main_call1.v4 main_call1.v5 main_call1.v6 (cmpi .sge),
    TRef.unary main_call1.c_1 main_call1.v7 (broadcastInDim S1x1x1 ![2] bcast_S1_S1x1x1_2),
    TRef.unary main_call1.v7 main_call1.v8 (broadcastInDim S1024x32x1 ![0, 1, 2] bcast_S1x1x1_S1024x32x1_0_1_2),
    TRef.binary main_call1.v4 main_call1.v8 main_call1.v9 (cmpi .sle),
    TRef.binary main_call1.v6 main_call1.v9 main_call1.v10 andi,
    TRef.nullary main_call1.c_3 (constantI S_ 1 1#1),
    TRef.binary main_call1.v10 main_call1.c_3 main_call1.v11 (fun x v => Host.reduce IntOp.andi x v reducesTo_S1024x32x1_S1024x32_d2 h_S_),
    TRef.binary (.of main_v12 : TRef sig ⟨S1024x64x512, .f32⟩) main_call1.v4 main_call1.v12
      (fun x i => Host.gather gather_S1024x64x512_S1024x32x1_S1024x32x512_2_1_0_0_1_2_11512 x i),
    TRef.unary main_call1.v11 main_call1.v13 (broadcastInDim S1024x32x512 ![0, 1] bcast_S1024x32_S1024x32x512_0_1),
    TRef.nullary main_call1.cst (constant S_ .f32 0x7FC00000#32),
    TRef.unary main_call1.cst main_call1.v14 (broadcastInDim S1024x32x512 ![] bcast_S_S1024x32x512),
    TRef.ternary main_call1.v13 main_call1.v12 main_call1.v14 main_call1.v15 select,
    unary main_v9 main_v15 (broadcastInDim S1024x32x1 ![0, 1] bcast_S1024x32_S1024x32x1_0_1 : (⟨S1024x32, .i1⟩ : BufTy).Contents (Elt F) → (⟨S1024x32x1, .i1⟩ : BufTy).Contents (Elt F)),
    nullary main_cst (constant S_ .f32 0x00000000#32),
    TRef.unary (.of main_v15 : TRef sig ⟨S1024x32x1, .i1⟩) main_call2.v0 (broadcastInDim S1024x32x512 ![0, 1, 2] bcast_S1024x32x1_S1024x32x512_0_1_2),
    TRef.unary (.of main_cst : TRef sig ⟨S_, .f32⟩) main_call2.v1 (broadcastInDim S1024x32x512 ![] bcast_S_S1024x32x512),
    TRef.ternary main_call2.v0 (.of main_v14 : TRef sig ⟨S1024x32x512, .f32⟩) main_call2.v1 main_call2.v2 select ]

set_option maxRecDepth 1024 in
/-- @main is that straight line: with the three callees' bodies unfolded at their calls, both sides are one chain of
    host steps once sequencing is re-associated. -/
theorem main_eq (c : Dev nD) : main (F := F) c = seq ops := by
  simp only [main, fn_argmax.body, fn_take_along_axis.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., nullary_bufs_sub .., unary_bufs_sub .., binary_bufs_sub .., unary_bufs_sub ..,
    unary_bufs_sub .., unary_bufs_sub .., unary_bufs_sub .., binary_bufs_sub .., nullary_bufs_sub .., binary_bufs_sub ..,
    nullary_bufs_sub .., nullary_bufs_sub .., nullary_bufs_sub .., quaternary_bufs_sub .., quaternary_bufs_sub ..,
    reshape_bufs_sub .., unary_bufs_sub .., unary_bufs_sub ..,
    nullary_bufs_sub .., unary_bufs_sub .., binary_bufs_sub .., nullary_bufs_sub .., unary_bufs_sub .., binary_bufs_sub ..,
    ternary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..,
    unary_bufs_sub .., nullary_bufs_sub .., unary_bufs_sub .., unary_bufs_sub .., ternary_bufs_sub ..⟩

/-- Every weakly fair execution of @main terminates with each buffer at the fold of the operations over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The first seventeen operations: the mask "cell s of board b holds piece p + 1", its "or" along the cells, and the
    arg-max along the cells. -/
abbrev opsA : List (HloOp τ sig (Elt F)) :=
  [ reshape main_arg1 main_v0 rfl shapeCasts_S1024x8x8_S1024x64,
    nullary main_v1 (iotaInDim S32 32 0),
    nullary main_c (constantI S_ 32 1#32),
    unary main_c main_v2 (broadcastInDim S32 ![] bcast_S_S32 : (⟨S_, .i32⟩ : BufTy).Contents (Elt F) → (⟨S32, .i32⟩ : BufTy).Contents (Elt F)),
    binary main_v2 main_v1 main_v3 (addi : (⟨S32, .i32⟩ : BufTy).Contents (Elt F) → (⟨S32, .i32⟩ : BufTy).Contents (Elt F) → (⟨S32, .i32⟩ : BufTy).Contents (Elt F)),
    unary main_v0 main_v4 (broadcastInDim S1024x1x64 ![0, 2] bcast_S1024x64_S1024x1x64_0_2 : (⟨S1024x64, .i32⟩ : BufTy).Contents (Elt F) → (⟨S1024x1x64, .i32⟩ : BufTy).Contents (Elt F)),
    unary main_v3 main_v5 (broadcastInDim S1x32x1 ![1] bcast_S32_S1x32x1_1 : (⟨S32, .i32⟩ : BufTy).Contents (Elt F) → (⟨S1x32x1, .i32⟩ : BufTy).Contents (Elt F)),
    unary main_v4 main_v6 (broadcastInDim S1024x32x64 ![0, 1, 2] bcast_S1024x1x64_S1024x32x64_0_1_2 : (⟨S1024x1x64, .i32⟩ : BufTy).Contents (Elt F) → (⟨S1024x32x64, .i32⟩ : BufTy).Contents (Elt F)),
    unary main_v5 main_v7 (broadcastInDim S1024x32x64 ![0, 1, 2] bcast_S1x32x1_S1024x32x64_0_1_2 : (⟨S1x32x1, .i32⟩ : BufTy).Contents (Elt F) → (⟨S1024x32x64, .i32⟩ : BufTy).Contents (Elt F)),
    binary main_v6 main_v7 main_v8 (cmpi .eq : (⟨S1024x32x64, .i32⟩ : BufTy).Contents (Elt F) → (⟨S1024x32x64, .i32⟩ : BufTy).Contents (Elt F) → (⟨S1024x32x64, .i1⟩ : BufTy).Contents (Elt F)),
    nullary main_c_0 (constantI S_ 1 0#1),
    binary main_v8 main_c_0 main_v9 ((fun x v => Host.reduce IntOp.ori x v reducesTo_S1024x32x64_S1024x32_d2 h_S_) : (⟨S1024x32x64, .i1⟩ : BufTy).Contents (Elt F) → (⟨S_, .i1⟩ : BufTy).Contents (Elt F) → (⟨S1024x32, .i1⟩ : BufTy).Contents (Elt F)),
    TRef.nullary main_call0.v0 (iotaInDim S1024x32x64 32 2),
    TRef.nullary main_call0.c (constantI S_ 1 0#1),
    TRef.nullary main_call0.c_0 (constantI S_ 32 0#32),
    TRef.quaternary (.of main_v8 : TRef sig ⟨S1024x32x64, .i1⟩) main_call0.v0 main_call0.c main_call0.c_0 main_call0.v1_0
      (fun x y u v j => (Host.reduce2 reducer_argmax_i1_i32 x y u v reducesTo_S1024x32x64_S1024x32_d2 h_S_ j).1),
    TRef.quaternary (.of main_v8 : TRef sig ⟨S1024x32x64, .i1⟩) main_call0.v0 main_call0.c main_call0.c_0 main_call0.v1_1
      (fun x y u v j => (Host.reduce2 reducer_argmax_i1_i32 x y u v reducesTo_S1024x32x64_S1024x32_d2 h_S_ j).2) ]

/-- The next twenty-five: the board vectors with the board axes merged and laid out cells-major, the picked cell as a
    column, and take_along_axis over them. -/
abbrev opsB : List (HloOp τ sig (Elt F)) :=
  [ reshape main_arg0 main_v11 rfl shapeCasts_S1024x512x8x8_S1024x512x64,
    unary main_v11 main_v12 ((transpose S1024x64x512 [0, 2, 1] · transposes_S1024x512x64_S1024x64x512_0_2_1) : (⟨S1024x512x64, .f32⟩ : BufTy).Contents (Elt F) → (⟨S1024x64x512, .f32⟩ : BufTy).Contents (Elt F)),
    unary main_v10 main_v13 (broadcastInDim S1024x32x1 ![0, 1] bcast_S1024x32_S1024x32x1_0_1 : (⟨S1024x32, .i32⟩ : BufTy).Contents (Elt F) → (⟨S1024x32x1, .i32⟩ : BufTy).Contents (Elt F)),
    TRef.nullary main_call1.c (constantI S_ 32 0#32),
    TRef.unary main_call1.c main_call1.v0 (broadcastInDim S1024x32x1 ![] bcast_S_S1024x32x1),
    TRef.binary (.of main_v13 : TRef sig ⟨S1024x32x1, .i32⟩) main_call1.v0 main_call1.v1 (cmpi .slt),
    TRef.nullary main_call1.c_0 (constantI S_ 32 64#32),
    TRef.unary main_call1.c_0 main_call1.v2 (broadcastInDim S1024x32x1 ![] bcast_S_S1024x32x1),
    TRef.binary (.of main_v13 : TRef sig ⟨S1024x32x1, .i32⟩) main_call1.v2 main_call1.v3 addi,
    TRef.ternary main_call1.v1 main_call1.v3 (.of main_v13 : TRef sig ⟨S1024x32x1, .i32⟩) main_call1.v4 select,
    TRef.nullary main_call1.c_1 (constantI S1 32 63#32),
    TRef.nullary main_call1.c_2 (constantI S_ 32 0#32),
    TRef.unary main_call1.c_2 main_call1.v5 (broadcastInDim S1024x32x1 ![] bcast_S_S1024x32x1),
    TRef.binary main_call1.v4 main_call1.v5 main_call1.v6 (cmpi .sge),
    TRef.unary main_call1.c_1 main_call1.v7 (broadcastInDim S1x1x1 ![2] bcast_S1_S1x1x1_2),
    TRef.unary main_call1.v7 main_call1.v8 (broadcastInDim S1024x32x1 ![0, 1, 2] bcast_S1x1x1_S1024x32x1_0_1_2),
    TRef.binary main_call1.v4 main_call1.v8 main_call1.v9 (cmpi .sle),
    TRef.binary main_call1.v6 main_call1.v9 main_call1.v10 andi,
    TRef.nullary main_call1.c_3 (constantI S_ 1 1#1),
    TRef.binary main_call1.v10 main_call1.c_3 main_call1.v11 (fun x v => Host.reduce IntOp.andi x v reducesTo_S1024x32x1_S1024x32_d2 h_S_),
    TRef.binary (.of main_v12 : TRef sig ⟨S1024x64x512, .f32⟩) main_call1.v4 main_call1.v12
      (fun x i => Host.gather gather_S1024x64x512_S1024x32x1_S1024x32x512_2_1_0_0_1_2_11512 x i),
    TRef.unary main_call1.v11 main_call1.v13 (broadcastInDim S1024x32x512 ![0, 1] bcast_S1024x32_S1024x32x512_0_1),
    TRef.nullary main_call1.cst (constant S_ .f32 0x7FC00000#32),
    TRef.unary main_call1.cst main_call1.v14 (broadcastInDim S1024x32x512 ![] bcast_S_S1024x32x512),
    TRef.ternary main_call1.v13 main_call1.v12 main_call1.v14 main_call1.v15 select ]

/-- The last five: the presence column, the zero, and the choice between the gathered row and zero. -/
abbrev opsC : List (HloOp τ sig (Elt F)) :=
  [ unary main_v9 main_v15 (broadcastInDim S1024x32x1 ![0, 1] bcast_S1024x32_S1024x32x1_0_1 : (⟨S1024x32, .i1⟩ : BufTy).Contents (Elt F) → (⟨S1024x32x1, .i1⟩ : BufTy).Contents (Elt F)),
    nullary main_cst (constant S_ .f32 0x00000000#32),
    TRef.unary (.of main_v15 : TRef sig ⟨S1024x32x1, .i1⟩) main_call2.v0 (broadcastInDim S1024x32x512 ![0, 1, 2] bcast_S1024x32x1_S1024x32x512_0_1_2),
    TRef.unary (.of main_cst : TRef sig ⟨S_, .f32⟩) main_call2.v1 (broadcastInDim S1024x32x512 ![] bcast_S_S1024x32x512),
    TRef.ternary main_call2.v0 (.of main_v14 : TRef sig ⟨S1024x32x512, .f32⟩) main_call2.v1 main_call2.v2 select ]

/-- The whole line is the three stretches one after the other. -/
theorem ops_split : (ops : List (HloOp τ sig (Elt F))) = opsA ++ (opsB ++ opsC) := rfl

/-- The contents after two lines run one after the other: the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

-- every equation below compares the reductions' and the gather's operands, never their bodies
attribute [local irreducible] Host.reduce Host.reduce2 Host.gather

set_option maxRecDepth 8192 in
/-- After the first stretch the presence buffer holds the "or" of the mask along the cells. -/
theorem A_v9 (W : Valuation τ sig (Elt F)) :
    after opsA W (main_v9 : DevRef τ sig) = Cert.FirstMatch.presentOf (W (main_arg1 : DevRef τ sig)) := by
  after_results_simp
  rfl

set_option maxRecDepth 8192 in
/-- After the first stretch the arg-max's index result holds the picked cell: the printed reducer is the fold step
    `ArgmaxFold.stepU1` written out. -/
theorem A_v10 (W : Valuation τ sig (Elt F)) :
    after opsA W (main_v10 : DevRef τ sig) = Cert.FirstMatch.firstR (W (main_arg1 : DevRef τ sig)) := by
  after_results_simp
  simp only [TRef.toBuf, TRef.ofBuf, cast_eq]
  rfl

set_option maxRecDepth 8192 in
/-- The first stretch does not write the float argument. -/
theorem A_arg0 (W : Valuation τ sig (Elt F)) :
    after opsA W (main_arg0 : DevRef τ sig) = W (main_arg0 : DevRef τ sig) := by
  after_results_simp

set_option maxRecDepth 8192 in
/-- The second stretch does not write the presence buffer. -/
theorem B_v9 (W : Valuation τ sig (Elt F)) :
    after opsB W (main_v9 : DevRef τ sig) = W (main_v9 : DevRef τ sig) := by
  after_results_simp

set_option maxRecDepth 8192 in
/-- After the second stretch the call's result holds take_along_axis of the cells-major board vectors at the picked
    cell's column. -/
theorem B_v14 (W : Valuation τ sig (Elt F)) :
    after opsB W (main_v14 : DevRef τ sig)
      = RefTerms.takeAlong
          (transpose S1024x64x512 [0, 2, 1] (Cert.FirstMatch.cellsOf (W (main_arg0 : DevRef τ sig)))
            transposes_S1024x512x64_S1024x64x512_0_2_1)
          (broadcastInDim S1024x32x1 ![0, 1] bcast_S1024x32_S1024x32x1_0_1 (W (main_v10 : DevRef τ sig))) := by
  after_results_simp
  simp only [TRef.toBuf, TRef.ofBuf, cast_eq]
  rfl

set_option maxRecDepth 8192 in
/-- After the last stretch the result holds the choice between the gathered rows and zero by the presence column. -/
theorem C_v16 (W : Valuation τ sig (Elt F)) :
    after opsC W (main_v16 : DevRef τ sig)
      = select
          (broadcastInDim S1024x32x512 ![0, 1, 2] bcast_S1024x32x1_S1024x32x512_0_1_2
            (broadcastInDim S1024x32x1 ![0, 1] bcast_S1024x32_S1024x32x1_0_1 (W (main_v9 : DevRef τ sig))))
          (W (main_v14 : DevRef τ sig))
          (broadcastInDim S1024x32x512 ![] bcast_S_S1024x32x512 (constant S_ .f32 0x00000000#32)) := by
  after_results_simp
  simp only [TRef.toBuf, TRef.ofBuf, cast_eq]

/-- The fold at the result buffer is `refOut` of the two arguments' contents: the three stretches' results composed
    spell `refOut`'s definition out. -/
theorem out_eq (V : Valuation τ sig (Elt F)) :
    after ops V (main_v16 : DevRef τ sig)
      = RefTerms.refOut (V (main_arg0 : DevRef τ sig)) (V (main_arg1 : DevRef τ sig)) := by
  rw [ops_split, after_append, after_append, C_v16, B_v9, B_v14, A_v9, A_v10, A_arg0]
  rfl

set_option maxRecDepth 8192 in
/-- No operation writes the first argument's buffer. -/
theorem arg0_eq (V : Valuation τ sig (Elt F)) :
    after ops V (main_arg0 : DevRef τ sig) = V (main_arg0 : DevRef τ sig) := by
  simp only [after_cons, after_nil]
  rfl

set_option maxRecDepth 8192 in
/-- No operation writes the second argument's buffer. -/
theorem arg1_eq (V : Valuation τ sig (Elt F)) :
    after ops V (main_arg1 : DevRef τ sig) = V (main_arg1 : DevRef τ sig) := by
  simp only [after_cons, after_nil]
  rfl

/-- Every weakly fair execution of the reference terminates with its result at `refOut` of the argument arrays and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
        = RefTerms.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v16).trans (out_eq _), (h c main_arg0).trans (arg0_eq _), (h c main_arg1).trans (arg1_eq _)⟩)
    (run_main m ρ)

end Cert.ReferenceIdeal.HandRun

end
-- ==== Proof.lean ====
/-
  A kernel that extracts, for each of 1024 boards and each of 32 piece ids, the 512-channel vector at the first cell
  of the 8 × 8 board holding that piece (zero when the piece is absent), against the jnp reference that does so with
  an arg-max, a take_along_axis and a where. The kernel computes the same arg-max on the host, turns it into a one-hot
  selector row times a presence indicator, and contracts the selector with the board vectors over the 64 cells on the
  matrix unit, 64 boards per grid point.

  Over the extended reals the two agree entry by entry: the selector row is one-hot at the picked cell or zero, and
  zero times anything is zero, so the contraction is the board vector at the picked cell or zero; the reference's index
  guard passes because the picked cell is always one of the 64; and where the piece occurs the two spellings of the
  arg-max (32-bit 0/1 values from the least signed value; the 1-bit mask from false) pick the same cell. No finiteness
  of the inputs is used.

  The frames of the two kernel programs are the generated ones; the reference's frame is its run with the result
  dropped. The idealization rewrote nothing, so there is nothing to preserve.
-/
import proofs.«154374_j19061064860376_1_alg».proof.Defs
import proofs.«154374_j19061064860376_1_alg».proof.Proof.Gen.Kernel
import proofs.«154374_j19061064860376_1_alg».proof.Proof.Gen.Kernel.Skeleton
import proofs.«154374_j19061064860376_1_alg».proof.Proof.Gen.Kernel.Launch
import proofs.«154374_j19061064860376_1_alg».proof.Proof.Gen.Kernel.Points
import proofs.«154374_j19061064860376_1_alg».proof.Proof.Gen.Kernel.Frame
import proofs.«154374_j19061064860376_1_alg».proof.Proof.Gen.KernelIdeal
import proofs.«154374_j19061064860376_1_alg».proof.Proof.Gen.KernelIdeal.Skeleton
import proofs.«154374_j19061064860376_1_alg».proof.Proof.Gen.KernelIdeal.Launch
import proofs.«154374_j19061064860376_1_alg».proof.Proof.Gen.KernelIdeal.Points
import proofs.«154374_j19061064860376_1_alg».proof.Proof.Gen.KernelIdeal.Frame
import proofs.«154374_j19061064860376_1_alg».proof.Proof.Gen.KernelIdeal.Value
import proofs.«154374_j19061064860376_1_alg».proof.Proof.Gen.ReferenceIdeal
import proofs.«154374_j19061064860376_1_alg».proof.Proof.Gen.Pre_finite_inputs
import proofs.«154374_j19061064860376_1_alg».proof.Proof.Equal
import proofs.«154374_j19061064860376_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The kernel's run ends with its output array at the reference's function of the arguments; the reference's run
    ends there too, from arguments that agree. -/
theorem algebraic : Cert.algebraic_KernelIdeal_ReferenceIdeal := by
  intro m ρ m' ρ' _ hagree
  refine ⟨fun c => Cert.KernelIdeal.ArrayValue.outArr m c, Cert.KernelIdeal.Value.run_blocks (F := Ideal) m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2]
  exact (Cert.KernelIdeal.Equal.outArr_eq_refOut m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
